-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x32 .f32) (main_arg3 : FVec F S96x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x128 .f32 := Host.absf main_arg3
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S64x128 : Shape := ⟨2, ![64, 128]⟩
abbrev S32x128 : Shape := ⟨2, ![32, 128]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S1x64 : Shape := ⟨2, ![1, 64]⟩
abbrev S16000x64 : Shape := ⟨2, ![16000, 64]⟩
abbrev S16000x32 : Shape := ⟨2, ![16000, 32]⟩
abbrev S16000x128 : Shape := ⟨2, ![16000, 128]⟩
abbrev S50000x1 : Shape := ⟨2, ![50000, 1]⟩
abbrev S10000x64 : Shape := ⟨2, ![10000, 64]⟩
abbrev S10000x128 : Shape := ⟨2, ![10000, 128]⟩

abbrev nBuf : Space → Nat
  | .hbm => 49
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S64x128, .f32⟩
  | .hbm, ⟨16, _⟩ => ⟨S32x128, .f32⟩
  | .hbm, ⟨17, _⟩ => ⟨S64x128, .f32⟩
  | .hbm, ⟨18, _⟩ => ⟨S64x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S1x128, .f32⟩
  | .hbm, ⟨29, _⟩ => ⟨S1x64, .f32⟩
  | .hbm, ⟨30, _⟩ => ⟨S800000x64, .f32⟩
  | .hbm, ⟨31, _⟩ => ⟨S_, .f32⟩
  | .hbm, ⟨32, _⟩ => ⟨S800000x1, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S50000x1, .f32⟩
  | .hbm, ⟨39, _⟩ => ⟨S800000x1, .i32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S1x128, .f32⟩
  | .hbm, ⟨47, _⟩ => ⟨S1x64, .f32⟩
  | .hbm, ⟨48, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x32, .f32⟩
  | .local _ .vmem, ⟨3, _⟩ => ⟨S16000x32, .f32⟩
  | .local _ .vmem, ⟨4, _⟩ => ⟨S64x128, .f32⟩
  | .local _ .vmem, ⟨5, _⟩ => ⟨S32x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S16000x64, .f32⟩
  | .local _ .vmem, ⟨10, _⟩ => ⟨S16000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x128, .f32⟩
  | .local _ .vmem, ⟨16, _⟩ => ⟨S64x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S96x128_S64x128_0_0 : S96x128.Slices ![0, 0] S64x128
  slices_S96x128_S32x128_64_0 : S96x128.Slices ![64, 0] S32x128
  slices_S128x128_S64x128_0_0 : S128x128.Slices ![0, 0] S64x128
  slices_S128x128_S64x128_64_0 : S128x128.Slices ![64, 0] S64x128
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S16000x32_S16000x32_0_0 : ∀ a, (![0, 0] : Fin 2 → Nat) a + S16000x32.size a ≤ S16000x32.size a
  h_S16000x32 : 0 < S16000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S800000x1 : S_.BroadcastsInDim S800000x1 (![] : Fin 0 → Fin S800000x1.rank)
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x128_S10000x128 : S1x128.Broadcasts S10000x128
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  dot_S16000x64_S64x128_S16000x128_1_0_0_1_n_n_wf : DotDims.WF S16000x64 S64x128 S16000x128 [1] [0] [0] [1] [] []
  dot_S16000x32_S32x128_S16000x128_1_0_0_1_n_n_wf : DotDims.WF S16000x32 S32x128 S16000x128 [1] [0] [0] [1] [] []
  dot_S16000x128_S128x64_S16000x64_1_0_0_1_n_n_wf : DotDims.WF S16000x128 S128x64 S16000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S800000x32.size a
  hwx0_1 : ∀ i : grid0.Coords, EltTy.bits .f32 = 32 ∨ (Rect.block (s := S800000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x64.size a ≤ S800000x64.size a
  hwx0_7 : ∀ i : grid0.Coords, EltTy.bits .f32 = 32 ∨ (Rect.block (s := S800000x64) S16000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v14) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S16000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S800000x96, .f32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S800000x64, .f32⟩
  | .hbm, ⟨33, _⟩ => ⟨S1x64, .f32⟩
  | .hbm, ⟨34, _⟩ => ⟨S800000x64, .f32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.MlpRow.lean ====
/-
  One row through a two-layer perceptron whose first layer reads its input in two pieces.

  Both pallas bodies of the kernel, and both halves of the reference, compute for one row
  `relu (a · Wa + b · Wb + b1) · W2 + b2`: the first layer's input is the row `a` (width `ka`) joined with the
  row `b` (width `kb`), its weight the rows of `Wa` over the rows of `Wb`. The kernel multiplies the two pieces
  separately and adds the products; the reference joins the pieces first and multiplies once. The two agree on the
  extended reals because a sum over the joined axis is the sum over the first piece plus the sum over the second:
  only associativity of addition is used, so nothing has to be finite.
-/
import Idealize.ShloMosaic.PureOps.Ideal
import Mathlib.Algebra.BigOperators.Fin

noncomputable section

open scoped BigOperators

namespace Cert.Mlp

/-- `relu (a · Wa + b · Wb + b1) · W2 + b2` at output coordinate `j`, on the extended reals. -/
def row {ka kb H O : ℕ} (a : Fin ka → EReal) (b : Fin kb → EReal) (Wa : Fin ka → Fin H → EReal)
    (Wb : Fin kb → Fin H → EReal) (b1 : Fin H → EReal) (W2 : Fin H → Fin O → EReal) (b2 : Fin O → EReal)
    (j : Fin O) : EReal :=
  (∑ h : Fin H, max ((∑ k : Fin ka, a k * Wa k h) + (∑ k : Fin kb, b k * Wb k h) + b1 h) 0 * W2 h j) + b2 j

/-- A sum of products over the joined axis is the sum over the first piece plus the sum over the second, when the
    joined row reads the first piece below `ka` and the second piece from `ka` on. -/
theorem sum_join {ka kb : ℕ} (cat W : Fin (ka + kb) → EReal) (a : Fin ka → EReal) (b : Fin kb → EReal)
    (ha : ∀ k, cat (Fin.castAdd kb k) = a k) (hb : ∀ k, cat (Fin.natAdd ka k) = b k) :
    ∑ k : Fin (ka + kb), cat k * W k
      = (∑ k : Fin ka, a k * W (Fin.castAdd kb k)) + ∑ k : Fin kb, b k * W (Fin.natAdd ka k) := by
  rw [Fin.sum_univ_add]
  simp only [ha, hb]

end Cert.Mlp

end
-- ==== Proof.Payload.lean ====
/-
  The two pallas bodies at an index.

  Each body loads a block of rows `x0`, a second block of rows `x1`, two weight blocks, a bias row, a second weight
  block and a second bias row, and stores `relu (x0 · x2 + x1 · x3 + x4) · x5 + x6` (the casts to bf16 in between are the
  identity on the extended reals, and each product accumulates into a zero block). Read at row `r`, column `j`, the
  stored block is the two-layer row function of row `r` of `x0` and row `r` of `x1`.

  Each product is first read as a sum over the dimension numbers' contraction index; that index has one axis, so the
  sum is re-indexed by the axis's coordinate `k`, and the operand positions at `(p, c)` and `k` are `(p, k)` on the left
  and `(k, c)` on the right, coordinate by coordinate. The rest is read off elementwise: a sum at an index is the sum
  of the elements, a maximum the maximum, a row broadcast reads its one row, and the zero word is `0`.
-/
import proofs.«413862_j48636209660178_3_alg».proof.Proof.Gen.KernelIdeal.Skeleton
import proofs.«413862_j48636209660178_3_alg».proof.Proof.MlpRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Each product at an index -/

/-! ### The 16000×64 by 64×128 product -/

/-- The left operand's row coordinate is the output's row. -/
theorem lhs_e1_0 (i : S16000x128.Idx) (q : dot_S16000x64_S64x128_S16000x128_1_0_0_1_n_n.contr.Idx) :
    (dot_S16000x64_S64x128_S16000x128_1_0_0_1_n_n.lhsIdx i q 0).val = (i 0).val := by
  unfold DotDims.lhsIdx
  rw [dif_neg (show ¬(0 : Fin S16000x64.rank) ∈ dot_S16000x64_S64x128_S16000x128_1_0_0_1_n_n.lhsBatch by decide), dif_pos (show (0 : Fin S16000x64.rank) ∈ dot_S16000x64_S64x128_S16000x128_1_0_0_1_n_n.lhsNonContracting by decide)]
  rfl
/-- The left operand's column coordinate is the contraction position. -/
theorem lhs_e1_1 (i : S16000x128.Idx) (q : dot_S16000x64_S64x128_S16000x128_1_0_0_1_n_n.contr.Idx) :
    (dot_S16000x64_S64x128_S16000x128_1_0_0_1_n_n.lhsIdx i q 1).val = (q ⟨0, by decide⟩).val :=
  dot_S16000x64_S64x128_S16000x128_1_0_0_1_n_n.lhsIdx_val_of_single rfl i q
/-- The right operand's row coordinate is the contraction position. -/
theorem rhs_e1_0 (i : S16000x128.Idx) (q : dot_S16000x64_S64x128_S16000x128_1_0_0_1_n_n.contr.Idx) :
    (dot_S16000x64_S64x128_S16000x128_1_0_0_1_n_n.rhsIdx i q 0).val = (q ⟨0, by decide⟩).val :=
  dot_S16000x64_S64x128_S16000x128_1_0_0_1_n_n.rhsIdx_val_of_single rfl i q
/-- The right operand's column coordinate is the output's column. -/
theorem rhs_e1_1 (i : S16000x128.Idx) (q : dot_S16000x64_S64x128_S16000x128_1_0_0_1_n_n.contr.Idx) :
    (dot_S16000x64_S64x128_S16000x128_1_0_0_1_n_n.rhsIdx i q 1).val = (i 1).val := by
  unfold DotDims.rhsIdx
  rw [dif_neg (show ¬(1 : Fin S64x128.rank) ∈ dot_S16000x64_S64x128_S16000x128_1_0_0_1_n_n.rhsBatch by decide), dif_pos (show (1 : Fin S64x128.rank) ∈ dot_S16000x64_S64x128_S16000x128_1_0_0_1_n_n.rhsNonContracting by decide)]
  rfl

/-- Read at row `p`, column `c`, the product accumulated into a zero block is `∑ k, l (p, k) * w (k, c)`: the sum over
    the one contracted axis, re-indexed by that axis's coordinate. -/
theorem matmul_e1_apply (l : FVec Ideal S16000x64 .bf16) (w : FVec Ideal S64x128 .bf16) (p : Fin 16000) (c : Fin 128) :
    matmul (F := Ideal) dot_S16000x64_S64x128_S16000x128_1_0_0_1_n_n none l w (constant (F := Ideal) S16000x128 .f32 0x00000000#32) (ix2 p c)
      = ∑ k : Fin 64, l (ix2 p k) * w (ix2 k c) := by
  refine (Ideal.matmul_constant_zero_apply dot_S16000x64_S64x128_S16000x128_1_0_0_1_n_n none l w (ix2 p c)).trans ?_
  rw [← Equiv.sum_comp (contrEquiv1 dot_S16000x64_S64x128_S16000x128_1_0_0_1_n_n 64 rfl rfl).symm]
  refine Finset.sum_congr rfl fun k _ => ?_
  have hk := contrEquiv1_symm_val dot_S16000x64_S64x128_S16000x128_1_0_0_1_n_n 64 rfl rfl k
  have el : dot_S16000x64_S64x128_S16000x128_1_0_0_1_n_n.lhsIdx (ix2 p c) ((contrEquiv1 dot_S16000x64_S64x128_S16000x128_1_0_0_1_n_n 64 rfl rfl).symm k) = ix2 p k := funext fun a => Fin.ext (by
    match a with
    | ⟨0, _⟩ => exact lhs_e1_0 _ _
    | ⟨1, _⟩ => exact (lhs_e1_1 _ _).trans hk)
  have er : dot_S16000x64_S64x128_S16000x128_1_0_0_1_n_n.rhsIdx (ix2 p c) ((contrEquiv1 dot_S16000x64_S64x128_S16000x128_1_0_0_1_n_n 64 rfl rfl).symm k) = ix2 k c := funext fun a => Fin.ext (by
    match a with
    | ⟨0, _⟩ => exact (rhs_e1_0 _ _).trans hk
    | ⟨1, _⟩ => exact rhs_e1_1 _ _)
  rw [el, er]

/-! ### The 16000×32 by 32×128 product -/

/-- The left operand's row coordinate is the output's row. -/
theorem lhs_e2_0 (i : S16000x128.Idx) (q : dot_S16000x32_S32x128_S16000x128_1_0_0_1_n_n.contr.Idx) :
    (dot_S16000x32_S32x128_S16000x128_1_0_0_1_n_n.lhsIdx i q 0).val = (i 0).val := by
  unfold DotDims.lhsIdx
  rw [dif_neg (show ¬(0 : Fin S16000x32.rank) ∈ dot_S16000x32_S32x128_S16000x128_1_0_0_1_n_n.lhsBatch by decide), dif_pos (show (0 : Fin S16000x32.rank) ∈ dot_S16000x32_S32x128_S16000x128_1_0_0_1_n_n.lhsNonContracting by decide)]
  rfl
/-- The left operand's column coordinate is the contraction position. -/
theorem lhs_e2_1 (i : S16000x128.Idx) (q : dot_S16000x32_S32x128_S16000x128_1_0_0_1_n_n.contr.Idx) :
    (dot_S16000x32_S32x128_S16000x128_1_0_0_1_n_n.lhsIdx i q 1).val = (q ⟨0, by decide⟩).val :=
  dot_S16000x32_S32x128_S16000x128_1_0_0_1_n_n.lhsIdx_val_of_single rfl i q
/-- The right operand's row coordinate is the contraction position. -/
theorem rhs_e2_0 (i : S16000x128.Idx) (q : dot_S16000x32_S32x128_S16000x128_1_0_0_1_n_n.contr.Idx) :
    (dot_S16000x32_S32x128_S16000x128_1_0_0_1_n_n.rhsIdx i q 0).val = (q ⟨0, by decide⟩).val :=
  dot_S16000x32_S32x128_S16000x128_1_0_0_1_n_n.rhsIdx_val_of_single rfl i q
/-- The right operand's column coordinate is the output's column. -/
theorem rhs_e2_1 (i : S16000x128.Idx) (q : dot_S16000x32_S32x128_S16000x128_1_0_0_1_n_n.contr.Idx) :
    (dot_S16000x32_S32x128_S16000x128_1_0_0_1_n_n.rhsIdx i q 1).val = (i 1).val := by
  unfold DotDims.rhsIdx
  rw [dif_neg (show ¬(1 : Fin S32x128.rank) ∈ dot_S16000x32_S32x128_S16000x128_1_0_0_1_n_n.rhsBatch by decide), dif_pos (show (1 : Fin S32x128.rank) ∈ dot_S16000x32_S32x128_S16000x128_1_0_0_1_n_n.rhsNonContracting by decide)]
  rfl

/-- Read at row `p`, column `c`, the product accumulated into a zero block is `∑ k, l (p, k) * w (k, c)`: the sum over
    the one contracted axis, re-indexed by that axis's coordinate. -/
theorem matmul_e2_apply (l : FVec Ideal S16000x32 .bf16) (w : FVec Ideal S32x128 .bf16) (p : Fin 16000) (c : Fin 128) :
    matmul (F := Ideal) dot_S16000x32_S32x128_S16000x128_1_0_0_1_n_n none l w (constant (F := Ideal) S16000x128 .f32 0x00000000#32) (ix2 p c)
      = ∑ k : Fin 32, l (ix2 p k) * w (ix2 k c) := by
  refine (Ideal.matmul_constant_zero_apply dot_S16000x32_S32x128_S16000x128_1_0_0_1_n_n none l w (ix2 p c)).trans ?_
  rw [← Equiv.sum_comp (contrEquiv1 dot_S16000x32_S32x128_S16000x128_1_0_0_1_n_n 32 rfl rfl).symm]
  refine Finset.sum_congr rfl fun k _ => ?_
  have hk := contrEquiv1_symm_val dot_S16000x32_S32x128_S16000x128_1_0_0_1_n_n 32 rfl rfl k
  have el : dot_S16000x32_S32x128_S16000x128_1_0_0_1_n_n.lhsIdx (ix2 p c) ((contrEquiv1 dot_S16000x32_S32x128_S16000x128_1_0_0_1_n_n 32 rfl rfl).symm k) = ix2 p k := funext fun a => Fin.ext (by
    match a with
    | ⟨0, _⟩ => exact lhs_e2_0 _ _
    | ⟨1, _⟩ => exact (lhs_e2_1 _ _).trans hk)
  have er : dot_S16000x32_S32x128_S16000x128_1_0_0_1_n_n.rhsIdx (ix2 p c) ((contrEquiv1 dot_S16000x32_S32x128_S16000x128_1_0_0_1_n_n 32 rfl rfl).symm k) = ix2 k c := funext fun a => Fin.ext (by
    match a with
    | ⟨0, _⟩ => exact (rhs_e2_0 _ _).trans hk
    | ⟨1, _⟩ => exact rhs_e2_1 _ _)
  rw [el, er]

/-! ### The 16000×128 by 128×64 product -/

/-- The left operand's row coordinate is the output's row. -/
theorem lhs_e3_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
/-- The left operand's column coordinate is the contraction position. -/
theorem lhs_e3_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
/-- The right operand's row coordinate is the contraction position. -/
theorem rhs_e3_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
/-- The right operand's column coordinate is the output's column. -/
theorem rhs_e3_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- Read at row `p`, column `c`, the product accumulated into a zero block is `∑ k, l (p, k) * w (k, c)`: the sum over
    the one contracted axis, re-indexed by that axis's coordinate. -/
theorem matmul_e3_apply (l : FVec Ideal S16000x128 .bf16) (w : FVec Ideal S128x64 .bf16) (p : Fin 16000) (c : Fin 64) :
    matmul (F := Ideal) dot_S16000x128_S128x64_S16000x64_1_0_0_1_n_n none l w (constant (F := Ideal) S16000x64 .f32 0x00000000#32) (ix2 p c)
      = ∑ k : Fin 128, l (ix2 p k) * w (ix2 k c) := by
  refine (Ideal.matmul_constant_zero_apply dot_S16000x128_S128x64_S16000x64_1_0_0_1_n_n none l w (ix2 p c)).trans ?_
  rw [← Equiv.sum_comp (contrEquiv1 dot_S16000x128_S128x64_S16000x64_1_0_0_1_n_n 128 rfl rfl).symm]
  refine Finset.sum_congr rfl fun k _ => ?_
  have hk := contrEquiv1_symm_val dot_S16000x128_S128x64_S16000x64_1_0_0_1_n_n 128 rfl rfl k
  have el : dot_S16000x128_S128x64_S16000x64_1_0_0_1_n_n.lhsIdx (ix2 p c) ((contrEquiv1 dot_S16000x128_S128x64_S16000x64_1_0_0_1_n_n 128 rfl rfl).symm k) = ix2 p k := funext fun a => Fin.ext (by
    match a with
    | ⟨0, _⟩ => exact lhs_e3_0 _ _
    | ⟨1, _⟩ => exact (lhs_e3_1 _ _).trans hk)
  have er : dot_S16000x128_S128x64_S16000x64_1_0_0_1_n_n.rhsIdx (ix2 p c) ((contrEquiv1 dot_S16000x128_S128x64_S16000x64_1_0_0_1_n_n 128 rfl rfl).symm k) = ix2 k c := funext fun a => Fin.ext (by
    match a with
    | ⟨0, _⟩ => exact (rhs_e3_0 _ _).trans hk
    | ⟨1, _⟩ => exact rhs_e3_1 _ _)
  rw [el, er]

/-! ### The 10000×64 by 64×128 product -/

/-- The left operand's row coordinate is the output's row. -/
theorem lhs_n1_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left operand's column coordinate is the contraction position. -/
theorem lhs_n1_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand's row coordinate is the contraction position. -/
theorem rhs_n1_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right operand's column coordinate is the output's column. -/
theorem rhs_n1_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Read at row `p`, column `c`, the product accumulated into a zero block is `∑ k, l (p, k) * w (k, c)`: the sum over
    the one contracted axis, re-indexed by that axis's coordinate. -/
theorem matmul_n1_apply (l : FVec Ideal S10000x64 .bf16) (w : FVec Ideal S64x128 .bf16) (p : Fin 10000) (c : Fin 128) :
    matmul (F := Ideal) dot_S10000x64_S64x128_S10000x128_1_0_0_1_n_n none l w (constant (F := Ideal) S10000x128 .f32 0x00000000#32) (ix2 p c)
      = ∑ k : Fin 64, l (ix2 p k) * w (ix2 k c) := by
  refine (Ideal.matmul_constant_zero_apply dot_S10000x64_S64x128_S10000x128_1_0_0_1_n_n none l w (ix2 p c)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p c) ((contrEquiv1 dot_S10000x64_S64x128_S10000x128_1_0_0_1_n_n 64 rfl rfl).symm k) = ix2 p k := funext fun a => Fin.ext (by
    match a with
    | ⟨0, _⟩ => exact lhs_n1_0 _ _
    | ⟨1, _⟩ => exact (lhs_n1_1 _ _).trans hk)
  have er : dot_S10000x64_S64x128_S10000x128_1_0_0_1_n_n.rhsIdx (ix2 p c) ((contrEquiv1 dot_S10000x64_S64x128_S10000x128_1_0_0_1_n_n 64 rfl rfl).symm k) = ix2 k c := funext fun a => Fin.ext (by
    match a with
    | ⟨0, _⟩ => exact (rhs_n1_0 _ _).trans hk
    | ⟨1, _⟩ => exact rhs_n1_1 _ _)
  rw [el, er]

/-! ### The 10000×128 by 128×64 product -/

/-- The left operand's row coordinate is the output's row. -/
theorem lhs_n3_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the contraction position. -/
theorem lhs_n3_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the contraction position. -/
theorem rhs_n3_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the output's column. -/
theorem rhs_n3_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Read at row `p`, column `c`, the product accumulated into a zero block is `∑ k, l (p, k) * w (k, c)`: the sum over
    the one contracted axis, re-indexed by that axis's coordinate. -/
theorem matmul_n3_apply (l : FVec Ideal S10000x128 .bf16) (w : FVec Ideal S128x64 .bf16) (p : Fin 10000) (c : Fin 64) :
    matmul (F := Ideal) dot_S10000x128_S128x64_S10000x64_1_0_0_1_n_n none l w (constant (F := Ideal) S10000x64 .f32 0x00000000#32) (ix2 p c)
      = ∑ k : Fin 128, l (ix2 p k) * w (ix2 k c) := by
  refine (Ideal.matmul_constant_zero_apply dot_S10000x128_S128x64_S10000x64_1_0_0_1_n_n none l w (ix2 p c)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p c) ((contrEquiv1 dot_S10000x128_S128x64_S10000x64_1_0_0_1_n_n 128 rfl rfl).symm k) = ix2 p k := funext fun a => Fin.ext (by
    match a with
    | ⟨0, _⟩ => exact lhs_n3_0 _ _
    | ⟨1, _⟩ => exact (lhs_n3_1 _ _).trans hk)
  have er : dot_S10000x128_S128x64_S10000x64_1_0_0_1_n_n.rhsIdx (ix2 p c) ((contrEquiv1 dot_S10000x128_S128x64_S10000x64_1_0_0_1_n_n 128 rfl rfl).symm k) = ix2 k c := funext fun a => Fin.ext (by
    match a with
    | ⟨0, _⟩ => exact (rhs_n3_0 _ _).trans hk
    | ⟨1, _⟩ => exact rhs_n3_1 _ _)
  rw [el, er]

/-! ## The two bodies -/

/-- The edge body's stored block at `(r, j)`. -/
theorem k0_pay1_apply (x0 : Vec Ideal S16000x64 .f32) (x1 : Vec Ideal S16000x32 .f32) (x2 : Vec Ideal S64x128 .f32)
    (x3 : Vec Ideal S32x128 .f32) (x4 : Vec Ideal S1x128 .f32) (x5 : Vec Ideal S128x64 .f32) (x6 : Vec Ideal S1x64 .f32)
    (r : Fin 16000) (j : Fin 64) :
    k0_pay1 (F := Ideal) x0 x1 x2 x3 x4 x5 x6 (ix2 r j)
      = Cert.Mlp.row (fun k : Fin 64 => x0 (ix2 r k)) (fun k : Fin 32 => x1 (ix2 r k))
          (fun (k : Fin 64) (h : Fin 128) => x2 (ix2 k h)) (fun (k : Fin 32) (h : Fin 128) => x3 (ix2 k h))
          (fun h : Fin 128 => x4 (ix2 (0 : Fin 1) h)) (fun (h : Fin 128) (o : Fin 64) => x5 (ix2 h o))
          (fun o : Fin 64 => x6 (ix2 (0 : Fin 1) o)) j := by
  unfold k0_pay1 Cert.Mlp.row
  simp only [shapeCast_self]
  -- the last addition, and the second bias row read through its broadcast
  refine (addf_apply _ _ _).trans ?_
  refine congrArg₂ (· + ·) ?_ (broadcastTo_1b_ab_apply _ _ r j)
  -- the second layer's product as a sum over the hidden coordinate
  refine (matmul_e3_apply _ _ r j).trans ?_
  refine Finset.sum_congr rfl fun h _ => ?_
  refine congrArg₂ (· * ·) ?_ rfl
  -- the hidden activation at `(r, h)`: the maximum with the zero splat
  refine (truncf_apply (φ := .f32) (ψ := .bf16) _ _ _).trans ?_
  refine (maximumf_apply _ _ _).trans ?_
  refine congrArg₂ max ?_ ((broadcast_apply _ _).trans Ideal.ofBits_zero_f32)
  -- the first bias row, then the two first-layer products
  refine (addf_apply _ _ _).trans ?_
  refine congrArg₂ (· + ·) ?_ (broadcastTo_1b_ab_apply _ _ r h)
  refine (addf_apply _ _ _).trans ?_
  exact congrArg₂ (· + ·) (matmul_e1_apply _ _ r h) (matmul_e2_apply _ _ r h)

/-- The node body's stored block at `(r, j)`. -/
theorem k1_pay1_apply (x0 : Vec Ideal S10000x64 .f32) (x1 : Vec Ideal S10000x64 .f32) (x2 : Vec Ideal S64x128 .f32)
    (x3 : Vec Ideal S64x128 .f32) (x4 : Vec Ideal S1x128 .f32) (x5 : Vec Ideal S128x64 .f32) (x6 : Vec Ideal S1x64 .f32)
    (r : Fin 10000) (j : Fin 64) :
    k1_pay1 (F := Ideal) x0 x1 x2 x3 x4 x5 x6 (ix2 r j)
      = Cert.Mlp.row (fun k : Fin 64 => x0 (ix2 r k)) (fun k : Fin 64 => x1 (ix2 r k))
          (fun (k : Fin 64) (h : Fin 128) => x2 (ix2 k h)) (fun (k : Fin 64) (h : Fin 128) => x3 (ix2 k h))
          (fun h : Fin 128 => x4 (ix2 (0 : Fin 1) h)) (fun (h : Fin 128) (o : Fin 64) => x5 (ix2 h o))
          (fun o : Fin 64 => x6 (ix2 (0 : Fin 1) o)) j := by
  unfold k1_pay1 Cert.Mlp.row
  simp only [shapeCast_self]
  -- the last addition, and the second bias row read through its broadcast
  refine (addf_apply _ _ _).trans ?_
  refine congrArg₂ (· + ·) ?_ (broadcastTo_1b_ab_apply _ _ r j)
  -- the second layer's product as a sum over the hidden coordinate
  refine (matmul_n3_apply _ _ r j).trans ?_
  refine Finset.sum_congr rfl fun h _ => ?_
  refine congrArg₂ (· * ·) ?_ rfl
  -- the hidden activation at `(r, h)`: the maximum with the zero splat
  refine (truncf_apply (φ := .f32) (ψ := .bf16) _ _ _).trans ?_
  refine (maximumf_apply _ _ _).trans ?_
  refine congrArg₂ max ?_ ((broadcast_apply _ _).trans Ideal.ofBits_zero_f32)
  -- the first bias row, then the two first-layer products
  refine (addf_apply _ _ _).trans ?_
  refine congrArg₂ (· + ·) ?_ (broadcastTo_1b_ab_apply _ _ r h)
  refine (addf_apply _ _ _).trans ?_
  exact congrArg₂ (· + ·) (matmul_n1_apply _ _ r h) (matmul_n1_apply _ _ r h)

end Cert.KernelIdeal.Payload

end
-- ==== Proof.MlpCongr.lean ====
/-
  The two-layer row function depends on its seven arguments only through their values.
-/
import proofs.«413862_j48636209660178_3_alg».proof.Proof.MlpRow

noncomputable section

namespace Cert.Mlp

/-- Equal inputs, weights and biases, entry by entry, give equal rows. -/
theorem row_congr {ka kb H O : ℕ} {a a' : Fin ka → EReal} {b b' : Fin kb → EReal} {Wa Wa' : Fin ka → Fin H → EReal}
    {Wb Wb' : Fin kb → Fin H → EReal} {b1 b1' : Fin H → EReal} {W2 W2' : Fin H → Fin O → EReal} {b2 b2' : Fin O → EReal}
    (ha : ∀ k, a k = a' k) (hb : ∀ k, b k = b' k) (hWa : ∀ k h, Wa k h = Wa' k h) (hWb : ∀ k h, Wb k h = Wb' k h)
    (hb1 : ∀ h, b1 h = b1' h) (hW2 : ∀ h o, W2 h o = W2' h o) (hb2 : ∀ o, b2 o = b2' o) (j : Fin O) :
    row a b Wa Wb b1 W2 b2 j = row a' b' Wa' Wb' b1' W2' b2' j := by
  have e1 : a = a' := funext ha
  have e2 : b = b' := funext hb
  have e3 : Wa = Wa' := funext fun k => funext (hWa k)
  have e4 : Wb = Wb' := funext fun k => funext (hWb k)
  have e5 : b1 = b1' := funext hb1
  have e6 : W2 = W2' := funext fun h => funext (hW2 h)
  have e7 : b2 = b2' := funext hb2
  rw [e1, e2, e3, e4, e5, e6, e7]

end Cert.Mlp

end
-- ==== Proof.Region0.lean ====
/-
  The edge pipeline's output array.

  The first pallas_call walks the 800000 edge rows in 50 blocks of 16000. At block `t` it stages rows
  `16000 t … 16000 t + 15999` of the gathered node features and of the edge features, the whole of the two weight
  pieces, the two bias rows and the second weight, and writes back the block of messages the body computes from them.
  Row `r` of block `t` is the two-layer row function of row `16000 t + r` of the two feature arrays, so every block is the
  restriction of ONE function of the region's input arrays to its rows; the 50 blocks tile the array, so after the run
  the output array is that function.
-/
import proofs.«413862_j48636209660178_3_alg».proof.Proof.Gen.KernelIdeal.Frame
import proofs.«413862_j48636209660178_3_alg».proof.Proof.Payload
import proofs.«413862_j48636209660178_3_alg».proof.Proof.MlpCongr
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The messages as one function of the region's seven input arrays: row `i 0` through the two layers, at column `i 1`. -/
def msgs (xr : S800000x64.Idx → Elt Ideal .f32) (ea : S800000x32.Idx → Elt Ideal .f32) (wa : S64x128.Idx → Elt Ideal .f32)
    (wb : S32x128.Idx → Elt Ideal .f32) (b1 : S1x128.Idx → Elt Ideal .f32) (w2 : S128x64.Idx → Elt Ideal .f32)
    (b2 : S1x64.Idx → Elt Ideal .f32) : S800000x64.Idx → Elt Ideal .f32 := fun i =>
  Cert.Mlp.row (ka := 64) (kb := 32) (H := 128) (O := 64) (fun k => xr (ix2 (i 0) k)) (fun k => ea (ix2 (i 0) k))
    (fun k h => wa (ix2 k h)) (fun k h => wb (ix2 k h)) (fun h => b1 (ix2 (0 : Fin 1) h)) (fun h o => w2 (ix2 h o))
    (fun o => b2 (ix2 (0 : Fin 1) o)) (i 1)

/-- The printed index maps over the grid: the two streamed inputs and the output sit at row block `t`, column block 0;
    the five resident inputs at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block read where the output's rows say -/

/-- Row `r` of block `t` of the gathered node features is row `16000 t + r` of the array. -/
theorem read_0 (c : Dev nD) (t : Fin cfg0.N) (r : Fin 16000) (k : Fin 64) (R : Fin 800000) (hR : R.val = t.val * 16000 + r.val) :
    iblk0 V c 0 t (ix2 r k) = V c main_v14 (ix2 R k) := by
  obtain ⟨e00, e01, -⟩ := idx_facts t
  show V c main_v14 (((cfg0.win 0).blk t).view.emb (ix2 r k)) = V c main_v14 (ix2 R k)
  refine congrArg (V c main_v14) (funext fun a => Fin.ext ?_)
  match a with
  | ⟨0, _⟩ => show win0_0.index t (0 : Fin 2) * 16000 + 1 * r.val = R.val; omega
  | ⟨1, _⟩ => show win0_0.index t (1 : Fin 2) * 64 + 1 * k.val = k.val; omega

/-- Row `r` of block `t` of the edge features is row `16000 t + r` of the array. -/
theorem read_1 (c : Dev nD) (t : Fin cfg0.N) (r : Fin 16000) (k : Fin 32) (R : Fin 800000) (hR : R.val = t.val * 16000 + r.val) :
    iblk0 V c 1 t (ix2 r k) = V c main_arg2 (ix2 R k) := by
  obtain ⟨-, -, e10, e11, -⟩ := idx_facts t
  show V c main_arg2 (((cfg0.win 1).blk t).view.emb (ix2 r k)) = V c main_arg2 (ix2 R k)
  refine congrArg (V c main_arg2) (funext fun a => Fin.ext ?_)
  match a with
  | ⟨0, _⟩ => show win0_1.index t (0 : Fin 2) * 16000 + 1 * r.val = R.val; omega
  | ⟨1, _⟩ => show win0_1.index t (1 : Fin 2) * 32 + 1 * k.val = k.val; omega

/-- The resident blocks are the whole arrays. -/
theorem read_2 (c : Dev nD) (t : Fin cfg0.N) (k : Fin 64) (h : Fin 128) : iblk0 V c 2 t (ix2 k h) = V c main_v4 (ix2 k h) := by
  obtain ⟨-, -, -, -, e20, e21, -⟩ := idx_facts t
  show V c main_v4 (((cfg0.win 2).blk t).view.emb (ix2 k h)) = V c main_v4 (ix2 k h)
  refine congrArg (V c main_v4) (funext fun a => Fin.ext ?_)
  match a with
  | ⟨0, _⟩ => show win0_2.index t (0 : Fin 2) * 64 + 1 * k.val = k.val; omega
  | ⟨1, _⟩ => show win0_2.index t (1 : Fin 2) * 128 + 1 * h.val = h.val; omega

theorem read_3 (c : Dev nD) (t : Fin cfg0.N) (k : Fin 32) (h : Fin 128) : iblk0 V c 3 t (ix2 k h) = V c main_v5 (ix2 k h) := by
  obtain ⟨-, -, -, -, -, -, e30, e31, -⟩ := idx_facts t
  show V c main_v5 (((cfg0.win 3).blk t).view.emb (ix2 k h)) = V c main_v5 (ix2 k h)
  refine congrArg (V c main_v5) (funext fun a => Fin.ext ?_)
  match a with
  | ⟨0, _⟩ => show win0_3.index t (0 : Fin 2) * 32 + 1 * k.val = k.val; omega
  | ⟨1, _⟩ => show win0_3.index t (1 : Fin 2) * 128 + 1 * h.val = h.val; omega

theorem read_4 (c : Dev nD) (t : Fin cfg0.N) (h : Fin 128) : iblk0 V c 4 t (ix2 (0 : Fin 1) h) = V c main_v15 (ix2 (0 : Fin 1) h) := by
  obtain ⟨-, -, -, -, -, -, -, -, e40, e41, -⟩ := idx_facts t
  show V c main_v15 (((cfg0.win 4).blk t).view.emb (ix2 (0 : Fin 1) h)) = V c main_v15 (ix2 (0 : Fin 1) h)
  refine congrArg (V c main_v15) (funext fun a => Fin.ext ?_)
  match a with
  | ⟨0, _⟩ => show win0_4.index t (0 : Fin 2) * 1 + 1 * 0 = 0; omega
  | ⟨1, _⟩ => show win0_4.index t (1 : Fin 2) * 128 + 1 * h.val = h.val; omega

theorem read_5 (c : Dev nD) (t : Fin cfg0.N) (h : Fin 128) (o : Fin 64) : iblk0 V c 5 t (ix2 h o) = V c main_arg5 (ix2 h o) := by
  obtain ⟨-, -, -, -, -, -, -, -, -, -, e50, e51, -⟩ := idx_facts t
  show V c main_arg5 (((cfg0.win 5).blk t).view.emb (ix2 h o)) = V c main_arg5 (ix2 h o)
  refine congrArg (V c main_arg5) (funext fun a => Fin.ext ?_)
  match a with
  | ⟨0, _⟩ => show win0_5.index t (0 : Fin 2) * 128 + 1 * h.val = h.val; omega
  | ⟨1, _⟩ => show win0_5.index t (1 : Fin 2) * 64 + 1 * o.val = o.val; omega

theorem read_6 (c : Dev nD) (t : Fin cfg0.N) (o : Fin 64) : iblk0 V c 6 t (ix2 (0 : Fin 1) o) = V c main_v16 (ix2 (0 : Fin 1) o) := by
  obtain ⟨-, -, -, -, -, -, -, -, -, -, -, -, e60, e61, -⟩ := idx_facts t
  show V c main_v16 (((cfg0.win 6).blk t).view.emb (ix2 (0 : Fin 1) o)) = V c main_v16 (ix2 (0 : Fin 1) o)
  refine congrArg (V c main_v16) (funext fun a => Fin.ext ?_)
  match a with
  | ⟨0, _⟩ => show win0_6.index t (0 : Fin 2) * 1 + 1 * 0 = 0; omega
  | ⟨1, _⟩ => show win0_6.index t (1 : Fin 2) * 64 + 1 * o.val = o.val; omega

/-! ## What a point writes back -/

/-- Point `t` writes back block `t` of the messages. -/
theorem flushed_eq (c : Dev nD) (t : Fin cfg0.N) :
    (dat0 V c).flushed 7 t = ((cfg0.win 7).blk t).view.read (Elt Ideal)
      (msgs (V c main_v14) (V c main_arg2) (V c main_v4) (V c main_v5) (V c main_v15) (V c main_arg5) (V c main_v16)) := by
  show (cfg0.win 7).cut (grid0.coords t) ((dat0 V c).after 7 t) = _
  rw [after0_7]
  unfold out0_7
  rw [View.canon_unit_zero hz]
  simp only [View.ld_unit_zero (S := S16000x64) hz, View.ld_unit_zero (S := S16000x32) hz, View.ld_unit_zero (S := S64x128) hz,
    View.ld_unit_zero (S := S32x128) hz, View.ld_unit_zero (S := S1x128) hz, View.ld_unit_zero (S := S128x64) hz,
    View.ld_unit_zero (S := S1x64) hz]
  funext j
  obtain ⟨r, q, rfl⟩ : ∃ (r : Fin 16000) (q : Fin 64), j = ix2 r q := ⟨j 0, j 1, eq_ix2 j⟩
  obtain ⟨-, -, -, -, -, -, -, -, -, -, -, -, -, -, e70, e71⟩ := idx_facts t
  have ht : t.val < 50 := t.isLt
  have hemb : ((cfg0.win 7).blk t).view.emb (ix2 r q)
      = (ix2 (⟨t.val * 16000 + r.val, by omega⟩ : Fin 800000) q : S800000x64.Idx) := by
    funext a; apply Fin.ext
    match a with
    | ⟨0, _⟩ => show win0_7.index t (0 : Fin 2) * 16000 + 1 * r.val = t.val * 16000 + r.val; omega
    | ⟨1, _⟩ => show win0_7.index t (1 : Fin 2) * 64 + 1 * q.val = q.val; omega
  show k0_pay1 (iblk0 V c 0 t) (iblk0 V c 1 t) (iblk0 V c 2 t) (iblk0 V c 3 t) (iblk0 V c 4 t) (iblk0 V c 5 t) (iblk0 V c 6 t) (ix2 r q)
    = msgs (V c main_v14) (V c main_arg2) (V c main_v4) (V c main_v5) (V c main_v15) (V c main_arg5) (V c main_v16)
        (((cfg0.win 7).blk t).view.emb (ix2 r q))
  refine (Cert.KernelIdeal.Payload.k0_pay1_apply (iblk0 V c 0 t) (iblk0 V c 1 t) (iblk0 V c 2 t) (iblk0 V c 3 t)
    (iblk0 V c 4 t) (iblk0 V c 5 t) (iblk0 V c 6 t) r q).trans ?_
  refine Eq.trans ?_ (congrArg (msgs (V c main_v14) (V c main_arg2) (V c main_v4) (V c main_v5) (V c main_v15) (V c main_arg5)
    (V c main_v16)) hemb).symm
  exact Cert.Mlp.row_congr (fun k => read_0 V c t r k _ rfl) (fun k => read_1 V c t r k _ rfl) (fun k h => read_2 V c t k h)
    (fun k h => read_3 V c t k h) (fun h => read_4 V c t h) (fun h o => read_5 V c t h o) (fun o => read_6 V c t o) q

/-! ## The blocks tile the array -/

/-- An index of the array is in point `t`'s block iff each coordinate is in the block's range on its axis. -/
theorem mem_blk (t : Fin cfg0.N) (i : S800000x64.Idx) :
    i ∈ ((cfg0.win 7).blk t).view.set ↔ ∀ a : Fin 2, win0_7.index t a * S16000x64.size a ≤ (i a).val
      ∧ (i a).val < win0_7.index t a * S16000x64.size a + S16000x64.size a := by
  show i ∈ ((View.whole main_v17).slice (win0_7.rect t)).set ↔ _
  rw [View.set_slice_whole, Rect.mem_set_unit]
  exact Iff.rfl

/-- Row `R` lies in the block of point `R / 16000`, which is written back. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  have hlt : (i 0).val / 16000 < 50 := by omega
  obtain ⟨-, -, -, -, -, -, -, -, -, -, -, -, -, -, e70, e71⟩ := idx_facts ⟨(i 0).val / 16000, hlt⟩
  have e70' : win0_7.index ⟨(i 0).val / 16000, hlt⟩ (0 : Fin 2) = (i 0).val / 16000 := e70
  refine ⟨⟨(i 0).val / 16000, hlt⟩, flush0_7 _, ?_⟩
  rw [mem_blk]
  intro a
  match a with
  | ⟨0, _⟩ =>
    show win0_7.index ⟨(i 0).val / 16000, hlt⟩ (0 : Fin 2) * 16000 ≤ (i 0).val
      ∧ (i 0).val < win0_7.index ⟨(i 0).val / 16000, hlt⟩ (0 : Fin 2) * 16000 + 16000
    omega
  | ⟨1, _⟩ =>
    show win0_7.index ⟨(i 0).val / 16000, hlt⟩ (1 : Fin 2) * 64 ≤ (i 1).val
      ∧ (i 1).val < win0_7.index ⟨(i 0).val / 16000, hlt⟩ (1 : Fin 2) * 64 + 64
    omega

/-- After the 50 points the output array holds the messages. -/
theorem final (c : Dev nD) : (dat0 V c).arrAt 7 cfg0.N
    = msgs (V c main_v14) (V c main_arg2) (V c main_v4) (V c main_v5) (V c main_v15) (V c main_arg5) (V c main_v16) :=
  (dat0 V c).arrAt_eq_of_cover 7 _ (fun t _ => flushed_eq V c t) cover

end Cert.KernelIdeal.Region0

end
-- ==== Proof.Region1.lean ====
/-
  The node pipeline's output array.

  The second pallas_call walks the 50000 node rows in 5 blocks of 10000. At block `t` it stages rows
  `10000 t … 10000 t + 9999` of the node features and of the mean-aggregated messages, the whole of the two weight
  pieces, the two bias rows and the second weight, and writes back the block of results the body computes from them.
  Row `r` of block `t` is the two-layer row function of row `10000 t + r` of the two arrays, so every block is the
  restriction of ONE function of the region's input arrays to its rows; the 5 blocks tile the array, so after the run
  the output array is that function.
-/
import proofs.«413862_j48636209660178_3_alg».proof.Proof.Gen.KernelIdeal.Frame
import proofs.«413862_j48636209660178_3_alg».proof.Proof.Payload
import proofs.«413862_j48636209660178_3_alg».proof.Proof.MlpCongr
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The results as one function of the region's seven input arrays: row `i 0` through the two layers, at column `i 1`. -/
def outs (x : S50000x64.Idx → Elt Ideal .f32) (agg : S50000x64.Idx → Elt Ideal .f32) (wa : S64x128.Idx → Elt Ideal .f32)
    (wb : S64x128.Idx → Elt Ideal .f32) (b3 : S1x128.Idx → Elt Ideal .f32) (w4 : S128x64.Idx → Elt Ideal .f32)
    (b4 : S1x64.Idx → Elt Ideal .f32) : S50000x64.Idx → Elt Ideal .f32 := fun i =>
  Cert.Mlp.row (ka := 64) (kb := 64) (H := 128) (O := 64) (fun k => x (ix2 (i 0) k)) (fun k => agg (ix2 (i 0) k))
    (fun k h => wa (ix2 k h)) (fun k h => wb (ix2 k h)) (fun h => b3 (ix2 (0 : Fin 1) h)) (fun h o => w4 (ix2 h o))
    (fun o => b4 (ix2 (0 : Fin 1) o)) (i 1)

/-- The printed index maps over the grid: the two streamed inputs and the output sit at row block `t`, column block 0;
    the five resident inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block read where the output's rows say -/

/-- Row `r` of block `t` of the node features is row `10000 t + r` of the array. -/
theorem read_0 (c : Dev nD) (t : Fin cfg1.N) (r : Fin 10000) (k : Fin 64) (R : Fin 50000) (hR : R.val = t.val * 10000 + r.val) :
    iblk1 V c 0 t (ix2 r k) = V c main_arg0 (ix2 R k) := by
  obtain ⟨e00, e01, -⟩ := idx_facts t
  show V c main_arg0 (((cfg1.win 0).blk t).view.emb (ix2 r k)) = V c main_arg0 (ix2 R k)
  refine congrArg (V c main_arg0) (funext fun a => Fin.ext ?_)
  match a with
  | ⟨0, _⟩ => show win1_0.index t (0 : Fin 2) * 10000 + 1 * r.val = R.val; omega
  | ⟨1, _⟩ => show win1_0.index t (1 : Fin 2) * 64 + 1 * k.val = k.val; omega

/-- Row `r` of block `t` of the aggregated messages is row `10000 t + r` of the array. -/
theorem read_1 (c : Dev nD) (t : Fin cfg1.N) (r : Fin 10000) (k : Fin 64) (R : Fin 50000) (hR : R.val = t.val * 10000 + r.val) :
    iblk1 V c 1 t (ix2 r k) = V c main_v28 (ix2 R k) := by
  obtain ⟨-, -, e10, e11, -⟩ := idx_facts t
  show V c main_v28 (((cfg1.win 1).blk t).view.emb (ix2 r k)) = V c main_v28 (ix2 R k)
  refine congrArg (V c main_v28) (funext fun a => Fin.ext ?_)
  match a with
  | ⟨0, _⟩ => show win1_1.index t (0 : Fin 2) * 10000 + 1 * r.val = R.val; omega
  | ⟨1, _⟩ => show win1_1.index t (1 : Fin 2) * 64 + 1 * k.val = k.val; omega

/-- The resident blocks are the whole arrays. -/
theorem read_2 (c : Dev nD) (t : Fin cfg1.N) (k : Fin 64) (h : Fin 128) : iblk1 V c 2 t (ix2 k h) = V c main_v6 (ix2 k h) := by
  obtain ⟨-, -, -, -, e20, e21, -⟩ := idx_facts t
  show V c main_v6 (((cfg1.win 2).blk t).view.emb (ix2 k h)) = V c main_v6 (ix2 k h)
  refine congrArg (V c main_v6) (funext fun a => Fin.ext ?_)
  match a with
  | ⟨0, _⟩ => show win1_2.index t (0 : Fin 2) * 64 + 1 * k.val = k.val; omega
  | ⟨1, _⟩ => show win1_2.index t (1 : Fin 2) * 128 + 1 * h.val = h.val; omega

theorem read_3 (c : Dev nD) (t : Fin cfg1.N) (k : Fin 64) (h : Fin 128) : iblk1 V c 3 t (ix2 k h) = V c main_v7 (ix2 k h) := by
  obtain ⟨-, -, -, -, -, -, e30, e31, -⟩ := idx_facts t
  show V c main_v7 (((cfg1.win 3).blk t).view.emb (ix2 k h)) = V c main_v7 (ix2 k h)
  refine congrArg (V c main_v7) (funext fun a => Fin.ext ?_)
  match a with
  | ⟨0, _⟩ => show win1_3.index t (0 : Fin 2) * 64 + 1 * k.val = k.val; omega
  | ⟨1, _⟩ => show win1_3.index t (1 : Fin 2) * 128 + 1 * h.val = h.val; omega

theorem read_4 (c : Dev nD) (t : Fin cfg1.N) (h : Fin 128) : iblk1 V c 4 t (ix2 (0 : Fin 1) h) = V c main_v29 (ix2 (0 : Fin 1) h) := by
  obtain ⟨-, -, -, -, -, -, -, -, e40, e41, -⟩ := idx_facts t
  show V c main_v29 (((cfg1.win 4).blk t).view.emb (ix2 (0 : Fin 1) h)) = V c main_v29 (ix2 (0 : Fin 1) h)
  refine congrArg (V c main_v29) (funext fun a => Fin.ext ?_)
  match a with
  | ⟨0, _⟩ => show win1_4.index t (0 : Fin 2) * 1 + 1 * 0 = 0; omega
  | ⟨1, _⟩ => show win1_4.index t (1 : Fin 2) * 128 + 1 * h.val = h.val; omega

theorem read_5 (c : Dev nD) (t : Fin cfg1.N) (h : Fin 128) (o : Fin 64) : iblk1 V c 5 t (ix2 h o) = V c main_arg9 (ix2 h o) := by
  obtain ⟨-, -, -, -, -, -, -, -, -, -, e50, e51, -⟩ := idx_facts t
  show V c main_arg9 (((cfg1.win 5).blk t).view.emb (ix2 h o)) = V c main_arg9 (ix2 h o)
  refine congrArg (V c main_arg9) (funext fun a => Fin.ext ?_)
  match a with
  | ⟨0, _⟩ => show win1_5.index t (0 : Fin 2) * 128 + 1 * h.val = h.val; omega
  | ⟨1, _⟩ => show win1_5.index t (1 : Fin 2) * 64 + 1 * o.val = o.val; omega

theorem read_6 (c : Dev nD) (t : Fin cfg1.N) (o : Fin 64) : iblk1 V c 6 t (ix2 (0 : Fin 1) o) = V c main_v30 (ix2 (0 : Fin 1) o) := by
  obtain ⟨-, -, -, -, -, -, -, -, -, -, -, -, e60, e61, -⟩ := idx_facts t
  show V c main_v30 (((cfg1.win 6).blk t).view.emb (ix2 (0 : Fin 1) o)) = V c main_v30 (ix2 (0 : Fin 1) o)
  refine congrArg (V c main_v30) (funext fun a => Fin.ext ?_)
  match a with
  | ⟨0, _⟩ => show win1_6.index t (0 : Fin 2) * 1 + 1 * 0 = 0; omega
  | ⟨1, _⟩ => show win1_6.index t (1 : Fin 2) * 64 + 1 * o.val = o.val; omega

/-! ## What a point writes back -/

/-- Point `t` writes back block `t` of the results. -/
theorem flushed_eq (c : Dev nD) (t : Fin cfg1.N) :
    (dat1 V c).flushed 7 t = ((cfg1.win 7).blk t).view.read (Elt Ideal)
      (outs (V c main_arg0) (V c main_v28) (V c main_v6) (V c main_v7) (V c main_v29) (V c main_arg9) (V c main_v30)) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x128) hz,
    View.ld_unit_zero (S := S1x128) hz, View.ld_unit_zero (S := S128x64) hz, View.ld_unit_zero (S := S1x64) hz]
  funext j
  obtain ⟨r, q, rfl⟩ : ∃ (r : Fin 10000) (q : Fin 64), j = ix2 r q := ⟨j 0, j 1, eq_ix2 j⟩
  obtain ⟨-, -, -, -, -, -, -, -, -, -, -, -, -, -, e70, e71⟩ := idx_facts t
  have ht : t.val < 5 := t.isLt
  have hemb : ((cfg1.win 7).blk t).view.emb (ix2 r q)
      = (ix2 (⟨t.val * 10000 + r.val, by omega⟩ : Fin 50000) q : S50000x64.Idx) := by
    funext a; apply Fin.ext
    match a with
    | ⟨0, _⟩ => show win1_7.index t (0 : Fin 2) * 10000 + 1 * r.val = t.val * 10000 + r.val; omega
    | ⟨1, _⟩ => show win1_7.index t (1 : Fin 2) * 64 + 1 * q.val = q.val; omega
  show k1_pay1 (iblk1 V c 0 t) (iblk1 V c 1 t) (iblk1 V c 2 t) (iblk1 V c 3 t) (iblk1 V c 4 t) (iblk1 V c 5 t) (iblk1 V c 6 t) (ix2 r q)
    = outs (V c main_arg0) (V c main_v28) (V c main_v6) (V c main_v7) (V c main_v29) (V c main_arg9) (V c main_v30)
        (((cfg1.win 7).blk t).view.emb (ix2 r q))
  refine (Cert.KernelIdeal.Payload.k1_pay1_apply (iblk1 V c 0 t) (iblk1 V c 1 t) (iblk1 V c 2 t) (iblk1 V c 3 t)
    (iblk1 V c 4 t) (iblk1 V c 5 t) (iblk1 V c 6 t) r q).trans ?_
  refine Eq.trans ?_ (congrArg (outs (V c main_arg0) (V c main_v28) (V c main_v6) (V c main_v7) (V c main_v29) (V c main_arg9)
    (V c main_v30)) hemb).symm
  exact Cert.Mlp.row_congr (fun k => read_0 V c t r k _ rfl) (fun k => read_1 V c t r k _ rfl) (fun k h => read_2 V c t k h)
    (fun k h => read_3 V c t k h) (fun h => read_4 V c t h) (fun h o => read_5 V c t h o) (fun o => read_6 V c t o) q

/-! ## The blocks tile the array -/

/-- An index of the array is in point `t`'s block iff each coordinate is in the block's range on its axis. -/
theorem mem_blk (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v31).slice (win1_7.rect t)).set ↔ _
  rw [View.set_slice_whole, Rect.mem_set_unit]
  exact Iff.rfl

/-- Row `R` lies in the block of point `R / 10000`, which is written back. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hlt : (i 0).val / 10000 < 5 := by omega
  obtain ⟨-, -, -, -, -, -, -, -, -, -, -, -, -, -, e70, e71⟩ := idx_facts ⟨(i 0).val / 10000, hlt⟩
  have e70' : win1_7.index ⟨(i 0).val / 10000, hlt⟩ (0 : Fin 2) = (i 0).val / 10000 := e70
  refine ⟨⟨(i 0).val / 10000, hlt⟩, flush1_7 _, ?_⟩
  rw [mem_blk]
  intro a
  match a with
  | ⟨0, _⟩ =>
    show win1_7.index ⟨(i 0).val / 10000, hlt⟩ (0 : Fin 2) * 10000 ≤ (i 0).val
      ∧ (i 0).val < win1_7.index ⟨(i 0).val / 10000, hlt⟩ (0 : Fin 2) * 10000 + 10000
    omega
  | ⟨1, _⟩ =>
    show win1_7.index ⟨(i 0).val / 10000, hlt⟩ (1 : Fin 2) * 64 ≤ (i 1).val
      ∧ (i 1).val < win1_7.index ⟨(i 0).val / 10000, hlt⟩ (1 : Fin 2) * 64 + 64
    omega

/-- After the 5 points the output array holds the results. -/
theorem final (c : Dev nD) : (dat1 V c).arrAt 7 cfg1.N
    = outs (V c main_arg0) (V c main_v28) (V c main_v6) (V c main_v7) (V c main_v29) (V c main_arg9) (V c main_v30) :=
  (dat1 V c).arrAt_eq_of_cover 7 _ (fun t _ => flushed_eq V c t) cover

end Cert.KernelIdeal.Region1

end
-- ==== Proof.KernelValue.lean ====
/-
  The kernel's result as one function of its eleven argument arrays.

  @main is four stretches: host operations (the two index rows cut out of `edge_index`, negative row indices wrapped
  by the number of nodes, the gather `x[row]`, the two weights cut into their rows below 64 and from 64 on, the two
  biases recast as rows), the edge pipeline, host operations (the messages summed per target node, a column of ones
  summed per target node, the sums divided by the counts raised to at least one, two more biases recast as rows),
  and the node pipeline. Each boundary's buffer contents are the fold of the stretch before it over the previous
  boundary's contents; a pipeline changes only its output array, which ends at the function the region's module gives.
  Reading the result buffer back through the four folds gives the term below.
-/
import proofs.«413862_j48636209660178_3_alg».proof.Proof.Gen.KernelIdeal.Frame
import proofs.«413862_j48636209660178_3_alg».proof.Proof.Region0
import proofs.«413862_j48636209660178_3_alg».proof.Proof.Region1
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.ShloMosaic.StableHlo
open Idealize.SL Idealize.SL.Sem

/-! ## The host terms -/

/-- Row `r` of `edge_index` as a vector. -/
def indexRow0 (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000
def indexRow1 (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The source indices as a column, a negative index raised by the number of nodes. -/
def srcIdx (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (indexRow0 x1) (broadcastInDim S800000 ![] bcast_S_S800000 (constantI S_ 32 0#32)))
      (addi (indexRow0 x1) (broadcastInDim S800000 ![] bcast_S_S800000 (constantI S_ 32 50000#32))) (indexRow0 x1))
/-- The target indices as a column. -/
def dstIdx (x1 : (⟨S2x800000, .i32⟩ : BufTy).Contents (Elt Ideal)) : (⟨S800000x1, .i32⟩ : BufTy).Contents (Elt Ideal) :=
  broadcastInDim S800000x1 ![0] bcast_S800000_S800000x1_0 (indexRow1 x1)

/-- The source nodes' features, one row per edge. -/
def gathered (x0 : (⟨S50000x64, .f32⟩ : BufTy).Contents (Elt Ideal)) (x1 : (⟨S2x800000, .i32⟩ : BufTy).Contents (Elt Ideal)) : (⟨S800000x64, .f32⟩ : BufTy).Contents (Elt Ideal) :=
  Host.gather gather_S50000x64_S800000x1_S800000x64_1_0_n_n_0_1_164 x0 (srcIdx x1)

/-- The edge messages. -/
def edgeMsgs (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) : (⟨S800000x64, .f32⟩ : BufTy).Contents (Elt Ideal) :=
  Region0.msgs (gathered x0 x1) x2 (extractStridedSlice S64x128 ![0, 0] x3 slices_S96x128_S64x128_0_0)
    (extractStridedSlice S32x128 ![64, 0] x3 slices_S96x128_S32x128_64_0) (shapeCast S1x128 x4 shapeCasts_S128_S1x128) x5
    (shapeCast S1x64 x6 shapeCasts_S64_S1x64)

/-- Per target node, how many edges point at it, at least one: a column. -/
def countCol (x1 : (⟨S2x800000, .i32⟩ : BufTy).Contents (Elt Ideal)) : (⟨S50000x1, .f32⟩ : BufTy).Contents (Elt Ideal) :=
  maximumf (F := Ideal)
    (Host.scatterAdd (F := Ideal) scatter_S50000x1_S800000x1_S800000x1_1_0_0_1
      (broadcastInDim S50000x1 ![] bcast_S_S50000x1 (constant (F := Ideal) S_ .f32 0x00000000#32)) (dstIdx x1)
      (broadcastInDim S800000x1 ![] bcast_S_S800000x1 (constant (F := Ideal) S_ .f32 0x3F800000#32)))
    (broadcastInDim S50000x1 ![] bcast_S_S50000x1 (constant (F := Ideal) S_ .f32 0x3F800000#32))

/-- The messages summed per target node. -/
def msgSum (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32)) (dstIdx x1)
    (edgeMsgs x0 x1 x2 x3 x4 x5 x6)

/-- The mean message per target node. -/
def agg (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) : (⟨S50000x64, .f32⟩ : BufTy).Contents (Elt Ideal) :=
  Host.divf (F := Ideal) (φ := .f32) (msgSum x0 x1 x2 x3 x4 x5 x6) (broadcastInDim S50000x64 ![0, 1] bcast_S50000x1_S50000x64_0_1 (countCol x1))

/-- The kernel's result. -/
def result (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) : (⟨S50000x64, .f32⟩ : BufTy).Contents (Elt Ideal) :=
  Region1.outs x0 (agg x0 x1 x2 x3 x4 x5 x6) (extractStridedSlice S64x128 ![0, 0] x7 slices_S128x128_S64x128_0_0)
    (extractStridedSlice S64x128 ![64, 0] x7 slices_S128x128_S64x128_64_0) (shapeCast S1x128 x8 shapeCasts_S128_S1x128) x9
    (shapeCast S1x64 x10 shapeCasts_S64_S1x64)

variable (m : (ℓ : Loc nD τ sig) → Buf (Elt Ideal) ℓ) (ρ : Dev nD → PrngReg)

/-! ## The edge pipeline's entry contents: the first stretch over the launch memory -/

theorem V1_v14 (c : Dev nD) : V1 m ρ c main_v14 = gathered (m ((c : Thread nD τ).loc main_arg0)) (m ((c : Thread nD τ).loc main_arg1)) := by
  show StableHlo.after hostOps0 (W0 m ρ c) (Proc.devRef .tc main_v14) = _
  after_results <;> rfl
theorem V1_arg2 (c : Dev nD) : V1 m ρ c main_arg2 = (m ((c : Thread nD τ).loc main_arg2)) := by
  show StableHlo.after hostOps0 (W0 m ρ c) (Proc.devRef .tc main_arg2) = _
  after_results <;> rfl
theorem V1_v4 (c : Dev nD) : V1 m ρ c main_v4 = extractStridedSlice S64x128 ![0, 0] (m ((c : Thread nD τ).loc main_arg3)) slices_S96x128_S64x128_0_0 := by
  show StableHlo.after hostOps0 (W0 m ρ c) (Proc.devRef .tc main_v4) = _
  after_results <;> rfl
theorem V1_v5 (c : Dev nD) : V1 m ρ c main_v5 = extractStridedSlice S32x128 ![64, 0] (m ((c : Thread nD τ).loc main_arg3)) slices_S96x128_S32x128_64_0 := by
  show StableHlo.after hostOps0 (W0 m ρ c) (Proc.devRef .tc main_v5) = _
  after_results <;> rfl
theorem V1_v15 (c : Dev nD) : V1 m ρ c main_v15 = shapeCast S1x128 (m ((c : Thread nD τ).loc main_arg4)) shapeCasts_S128_S1x128 := by
  show StableHlo.after hostOps0 (W0 m ρ c) (Proc.devRef .tc main_v15) = _
  after_results <;> rfl
theorem V1_arg5 (c : Dev nD) : V1 m ρ c main_arg5 = (m ((c : Thread nD τ).loc main_arg5)) := by
  show StableHlo.after hostOps0 (W0 m ρ c) (Proc.devRef .tc main_arg5) = _
  after_results <;> rfl
theorem V1_v16 (c : Dev nD) : V1 m ρ c main_v16 = shapeCast S1x64 (m ((c : Thread nD τ).loc main_arg6)) shapeCasts_S64_S1x64 := by
  show StableHlo.after hostOps0 (W0 m ρ c) (Proc.devRef .tc main_v16) = _
  after_results <;> rfl

/-! ## The edge pipeline's exit contents -/

/-- Its output array holds the edge messages. -/
theorem W2_v17 (c : Dev nD) : W2 m ρ c (Proc.devRef .tc main_v17)
    = edgeMsgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ((Region0.final (V1 m ρ) c).trans ?_)
  rw [V1_v14, V1_arg2, V1_v4, V1_v5, V1_v15, V1_arg5, V1_v16]
  rfl

/-- A buffer that is none of the pipeline's arrays is as the first stretch left it. -/
theorem W2_v3 (c : Dev nD) : W2 m ρ c (Proc.devRef .tc main_v3) = indexRow1 (m ((c : Thread nD τ).loc main_arg1)) := by
  refine (W2_of_ne m ρ c main_v3 (by decide)).trans ?_
  show StableHlo.after hostOps0 (W0 m ρ c) (Proc.devRef .tc main_v3) = _
  after_results <;> rfl
theorem W2_v6 (c : Dev nD) : W2 m ρ c (Proc.devRef .tc main_v6) = extractStridedSlice S64x128 ![0, 0] (m ((c : Thread nD τ).loc main_arg7)) slices_S128x128_S64x128_0_0 := by
  refine (W2_of_ne m ρ c main_v6 (by decide)).trans ?_
  show StableHlo.after hostOps0 (W0 m ρ c) (Proc.devRef .tc main_v6) = _
  after_results <;> rfl
theorem W2_v7 (c : Dev nD) : W2 m ρ c (Proc.devRef .tc main_v7) = extractStridedSlice S64x128 ![64, 0] (m ((c : Thread nD τ).loc main_arg7)) slices_S128x128_S64x128_64_0 := by
  refine (W2_of_ne m ρ c main_v7 (by decide)).trans ?_
  show StableHlo.after hostOps0 (W0 m ρ c) (Proc.devRef .tc main_v7) = _
  after_results <;> rfl
theorem W2_arg0 (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results <;> rfl
theorem W2_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results <;> rfl
theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results <;> rfl
theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results <;> rfl

/-! ## The node pipeline's entry contents: the second stretch over the edge pipeline's exit contents -/

theorem V3_arg0 (c : Dev nD) : V3 m ρ c main_arg0 = (m ((c : Thread nD τ).loc main_arg0)) := by
  show StableHlo.after hostOps1 (W2 m ρ c) (Proc.devRef .tc main_arg0) = _
  after_results; exact W2_arg0 m ρ c
theorem V3_v6 (c : Dev nD) : V3 m ρ c main_v6 = extractStridedSlice S64x128 ![0, 0] (m ((c : Thread nD τ).loc main_arg7)) slices_S128x128_S64x128_0_0 := by
  show StableHlo.after hostOps1 (W2 m ρ c) (Proc.devRef .tc main_v6) = _
  after_results; exact W2_v6 m ρ c
theorem V3_v7 (c : Dev nD) : V3 m ρ c main_v7 = extractStridedSlice S64x128 ![64, 0] (m ((c : Thread nD τ).loc main_arg7)) slices_S128x128_S64x128_64_0 := by
  show StableHlo.after hostOps1 (W2 m ρ c) (Proc.devRef .tc main_v7) = _
  after_results; exact W2_v7 m ρ c
theorem V3_arg9 (c : Dev nD) : V3 m ρ c main_arg9 = (m ((c : Thread nD τ).loc main_arg9)) := by
  show StableHlo.after hostOps1 (W2 m ρ c) (Proc.devRef .tc main_arg9) = _
  after_results; exact W2_arg9 m ρ c
theorem V3_v29 (c : Dev nD) : V3 m ρ c main_v29 = shapeCast S1x128 (m ((c : Thread nD τ).loc main_arg8)) shapeCasts_S128_S1x128 := by
  show StableHlo.after hostOps1 (W2 m ρ c) (Proc.devRef .tc main_v29) = _
  after_results; rw [W2_arg8]; rfl
theorem V3_v30 (c : Dev nD) : V3 m ρ c main_v30 = shapeCast S1x64 (m ((c : Thread nD τ).loc main_arg10)) shapeCasts_S64_S1x64 := by
  show StableHlo.after hostOps1 (W2 m ρ c) (Proc.devRef .tc main_v30) = _
  after_results; rw [W2_arg10]; rfl
theorem V3_v28 (c : Dev nD) : V3 m ρ c main_v28
    = agg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v28) = _
  after_results
  rw [W2_v3, W2_v17]
  unfold agg msgSum countCol dstIdx
  rfl

/-! ## The result buffer after the run -/

/-- The last boundary's contents at the result buffer: the node pipeline's output array. -/
theorem kernel_value (c : Dev nD) : W4 m ρ c (Proc.devRef .tc main_v31)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ((Region1.final (V3 m ρ) c).trans ?_)
  rw [V3_arg0, V3_v28, V3_v6, V3_v7, V3_v29, V3_arg9, V3_v30]
  rfl

end Cert.KernelIdeal.KValue

end
-- ==== Proof.RefRead.lean ====
/-
  The reference at an index.

  The reference computes the edge messages as `relu ([x[row] | edge_attr] · W1 + b1) · W2 + b2` and the result as
  `relu ([x | agg] · W3 + b3) · W4 + b4`, joining the two pieces of each first layer's input along the feature axis
  before one matrix product. Read at row `e` (or `p`) and column `j`, each is the two-layer row function of the two
  pieces' rows, the first weight cut into its rows below 64 and its rows from 64 on: the product's sum over the joined
  axis is the sum over the first piece plus the sum over the second.
-/
import proofs.«413862_j48636209660178_3_alg».proof.Proof.Gen.ReferenceIdeal.Read
import proofs.«413862_j48636209660178_3_alg».proof.Proof.MlpRow
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.ValueIdx

/-! Each half is read outermost first: the second bias, the second product as a sum over the 128 hidden units, then per
hidden unit the rectification, the first bias, and the first product, whose sum over the joined axis is cut at column 64
into the two pieces' sums. The joined input is only ever read at one index, where it is one piece's element. -/
/-! ## The edge half -/

/-- The first product reads row `e` of the joined input at column `k` … -/
theorem lidx12 (e : Fin 800000) (h : Fin 128) (k : Fin 96) : lidx_main_v12 (ix2 e h) k = ix2 e k :=
  funext fun a => match a with | ⟨0, _⟩ => rfl | ⟨1, _⟩ => rfl
/-- … against row `k` of the first weight at column `h`. -/
theorem ridx12 (e : Fin 800000) (h : Fin 128) (k : Fin 96) : ridx_main_v12 (ix2 e h) k = ix2 k h :=
  funext fun a => match a with | ⟨0, _⟩ => rfl | ⟨1, _⟩ => rfl
/-- The second product reads row `e` of the hidden layer at unit `h` … -/
theorem lidx17 (e : Fin 800000) (j : Fin 64) (h : Fin 128) : lidx_main_v17 (ix2 e j) h = ix2 e h :=
  funext fun a => match a with | ⟨0, _⟩ => rfl | ⟨1, _⟩ => rfl
/-- … against row `h` of the second weight at column `j`. -/
theorem ridx17 (e : Fin 800000) (j : Fin 64) (h : Fin 128) : ridx_main_v17 (ix2 e j) h = ix2 h j :=
  funext fun a => match a with | ⟨0, _⟩ => rfl | ⟨1, _⟩ => rfl

/-- The first bias, broadcast along the rows, read at `(e, h)` is its entry `h`. -/
theorem bias14 (x4 : (⟨S128, .f32⟩ : BufTy).Contents (Elt Ideal)) (e : Fin 800000) (h : Fin 128) :
    val_main_v14 (F := Ideal) x4 (ix2 e h) = x4 (ix1 h) := by
  rw [val_main_v14_apply, val_main_v13_apply]
  exact congrArg x4 (funext fun a => match a with | ⟨0, _⟩ => rfl)
/-- The second bias, broadcast along the rows, read at `(e, j)` is its entry `j`. -/
theorem bias19 (x6 : (⟨S64, .f32⟩ : BufTy).Contents (Elt Ideal)) (e : Fin 800000) (j : Fin 64) :
    val_main_v19 (F := Ideal) x6 (ix2 e j) = x6 (ix1 j) := by
  rw [val_main_v19_apply, val_main_v18_apply]
  exact congrArg x6 (funext fun a => match a with | ⟨0, _⟩ => rfl)

/-- The joined input at a column below 64 is the gathered node features at that column. -/
theorem cat11_left (x0 : (⟨S50000x64, .f32⟩ : BufTy).Contents (Elt Ideal)) (x1 : (⟨S2x800000, .i32⟩ : BufTy).Contents (Elt Ideal)) (x2 : (⟨S800000x32, .f32⟩ : BufTy).Contents (Elt Ideal)) (e : Fin 800000) (k : Fin 64) :
    val_main_v11 (F := Ideal) x0 x1 x2 (ix2 e (⟨k.val, by omega⟩ : Fin 96)) = val_main_v10 (F := Ideal) x0 x1 (ix2 e k) := by
  unfold val_main_v11
  exact concatenate_pair_apply_left (1 : Fin S800000x96.rank) _ _ concatenates_S800000x64_S800000x32_S800000x96_d1
    (ix2 e (⟨k.val, by omega⟩ : Fin 96)) rfl (ix2 e k) (fun b => match b with | ⟨0, _⟩ => rfl | ⟨1, _⟩ => rfl)
/-- The joined input at a column from 64 on is the edge features at that column less 64. -/
theorem cat11_right (x0 : (⟨S50000x64, .f32⟩ : BufTy).Contents (Elt Ideal)) (x1 : (⟨S2x800000, .i32⟩ : BufTy).Contents (Elt Ideal)) (x2 : (⟨S800000x32, .f32⟩ : BufTy).Contents (Elt Ideal)) (e : Fin 800000) (k : Fin 32) :
    val_main_v11 (F := Ideal) x0 x1 x2 (ix2 e (⟨64 + k.val, by omega⟩ : Fin 96)) = x2 (ix2 e k) := by
  unfold val_main_v11
  exact concatenate_pair_apply_right (1 : Fin S800000x96.rank) _ _ concatenates_S800000x64_S800000x32_S800000x96_d1
    (ix2 e (⟨64 + k.val, by omega⟩ : Fin 96)) rfl rfl (ix2 e k)
    (fun b hb => match b, hb with | ⟨0, _⟩, _ => rfl | ⟨1, _⟩, hb => absurd rfl hb)
    (Nat.add_comm _ _)

/-- The first product at `(e, h)`: its sum over the 96 joined columns is the sum over the 64 node-feature columns plus
    the sum over the 32 edge-feature columns. -/
theorem dot12 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (e : Fin 800000) (h : Fin 128) :
    val_main_v12 (F := Ideal) x0 x1 x2 x3 (ix2 e h)
      = (∑ k : Fin 64, val_main_v10 (F := Ideal) x0 x1 (ix2 e k) * x3 (ix2 (⟨k.val, by omega⟩ : Fin 96) h))
        + ∑ k : Fin 32, x2 (ix2 e k) * x3 (ix2 (⟨64 + k.val, by omega⟩ : Fin 96) h) := by
  rw [val_main_v12_apply]
  have hj := Cert.Mlp.sum_join (ka := 64) (kb := 32)
    (fun k : Fin 96 => val_main_v11 (F := Ideal) x0 x1 x2 (lidx_main_v12 (ix2 e h) k))
    (fun k : Fin 96 => x3 (ridx_main_v12 (ix2 e h) k))
    (fun k : Fin 64 => val_main_v10 (F := Ideal) x0 x1 (ix2 e k)) (fun k : Fin 32 => x2 (ix2 e k))
    (fun k => (congrArg (val_main_v11 (F := Ideal) x0 x1 x2) (lidx12 e h _)).trans (cat11_left x0 x1 x2 e k))
    (fun k => (congrArg (val_main_v11 (F := Ideal) x0 x1 x2) (lidx12 e h _)).trans (cat11_right x0 x1 x2 e k))
  refine hj.trans ?_
  exact congrArg₂ (· + ·)
    (Finset.sum_congr rfl fun k _ => congrArg (fun w => val_main_v10 (F := Ideal) x0 x1 (ix2 e k) * x3 w) (ridx12 e h _))
    (Finset.sum_congr rfl fun k _ => congrArg (fun w => x2 (ix2 e k) * x3 w) (ridx12 e h _))

/-- Hidden unit `h` of edge `e`: the rectified first layer. -/
theorem hidden16 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (e : Fin 800000) (h : Fin 128) :
    val_main_v16 (F := Ideal) x0 x1 x2 x3 x4 (ix2 e h)
      = max ((∑ k : Fin 64, val_main_v10 (F := Ideal) x0 x1 (ix2 e k) * x3 (ix2 (⟨k.val, by omega⟩ : Fin 96) h))
          + (∑ k : Fin 32, x2 (ix2 e k) * x3 (ix2 (⟨64 + k.val, by omega⟩ : Fin 96) h)) + x4 (ix1 h)) 0 := by
  rw [val_main_v16_apply, Ideal.maximumf_def, val_main_v15_apply, Ideal.addf_def, val_main_call0_v0_apply,
    val_main_call0_cst_apply, Ideal.ofBits_def, Ideal.ofBits_zero_f32, bias14, dot12]

/-! ## The node half -/

/-- The first product reads row `p` of the joined input at column `k` … -/
theorem lidx34 (p : Fin 50000) (h : Fin 128) (k : Fin 128) : lidx_main_v34 (ix2 p h) k = ix2 p k :=
  funext fun a => match a with | ⟨0, _⟩ => rfl | ⟨1, _⟩ => rfl
/-- … against row `k` of the first weight at column `h`. -/
theorem ridx34 (p : Fin 50000) (h : Fin 128) (k : Fin 128) : ridx_main_v34 (ix2 p h) k = ix2 k h :=
  funext fun a => match a with | ⟨0, _⟩ => rfl | ⟨1, _⟩ => rfl
/-- The second product reads row `p` of the hidden layer at unit `h` … -/
theorem lidx39 (p : Fin 50000) (j : Fin 64) (h : Fin 128) : lidx_main_v39 (ix2 p j) h = ix2 p h :=
  funext fun a => match a with | ⟨0, _⟩ => rfl | ⟨1, _⟩ => rfl
/-- … against row `h` of the second weight at column `j`. -/
theorem ridx39 (p : Fin 50000) (j : Fin 64) (h : Fin 128) : ridx_main_v39 (ix2 p j) h = ix2 h j :=
  funext fun a => match a with | ⟨0, _⟩ => rfl | ⟨1, _⟩ => rfl

/-- The first bias, broadcast along the rows, read at `(p, h)` is its entry `h`. -/
theorem bias36 (x8 : (⟨S128, .f32⟩ : BufTy).Contents (Elt Ideal)) (p : Fin 50000) (h : Fin 128) :
    val_main_v36 (F := Ideal) x8 (ix2 p h) = x8 (ix1 h) := by
  rw [val_main_v36_apply, val_main_v35_apply]
  exact congrArg x8 (funext fun a => match a with | ⟨0, _⟩ => rfl)
/-- The second bias, broadcast along the rows, read at `(p, j)` is its entry `j`. -/
theorem bias41 (x10 : (⟨S64, .f32⟩ : BufTy).Contents (Elt Ideal)) (p : Fin 50000) (j : Fin 64) :
    val_main_v41 (F := Ideal) x10 (ix2 p j) = x10 (ix1 j) := by
  rw [val_main_v41_apply, val_main_v40_apply]
  exact congrArg x10 (funext fun a => match a with | ⟨0, _⟩ => rfl)

/-- The joined input at a column below 64 is the node features at that column. -/
theorem cat33_left (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 50000) (k : Fin 64) :
    val_main_v33 (F := Ideal) x0 x1 x2 x3 x4 x5 x6 (ix2 p (⟨k.val, by omega⟩ : Fin 128)) = x0 (ix2 p k) := by
  unfold val_main_v33
  exact concatenate_pair_apply_left (1 : Fin S50000x128.rank) _ _ concatenates_S50000x64_S50000x64_S50000x128_d1
    (ix2 p (⟨k.val, by omega⟩ : Fin 128)) rfl (ix2 p k) (fun b => match b with | ⟨0, _⟩ => rfl | ⟨1, _⟩ => rfl)
/-- The joined input at a column from 64 on is the aggregated messages at that column less 64. -/
theorem cat33_right (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 50000) (k : Fin 64) :
    val_main_v33 (F := Ideal) x0 x1 x2 x3 x4 x5 x6 (ix2 p (⟨64 + k.val, by omega⟩ : Fin 128))
      = val_main_v32 (F := Ideal) x0 x1 x2 x3 x4 x5 x6 (ix2 p k) := by
  unfold val_main_v33
  exact concatenate_pair_apply_right (1 : Fin S50000x128.rank) _ _ concatenates_S50000x64_S50000x64_S50000x128_d1
    (ix2 p (⟨64 + k.val, by omega⟩ : Fin 128)) rfl rfl (ix2 p k)
    (fun b hb => match b, hb with | ⟨0, _⟩, _ => rfl | ⟨1, _⟩, hb => absurd rfl hb)
    (Nat.add_comm _ _)

/-- The first product at `(p, h)`: its sum over the 128 joined columns is the sum over the 64 node-feature columns plus
    the sum over the 64 aggregated-message columns. -/
theorem dot34 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (p : Fin 50000) (h : Fin 128) :
    val_main_v34 (F := Ideal) x0 x1 x2 x3 x4 x5 x6 x7 (ix2 p h)
      = (∑ k : Fin 64, x0 (ix2 p k) * x7 (ix2 (⟨k.val, by omega⟩ : Fin 128) h))
        + ∑ k : Fin 64, val_main_v32 (F := Ideal) x0 x1 x2 x3 x4 x5 x6 (ix2 p k) * x7 (ix2 (⟨64 + k.val, by omega⟩ : Fin 128) h) := by
  rw [val_main_v34_apply]
  have hj := Cert.Mlp.sum_join (ka := 64) (kb := 64)
    (fun k : Fin 128 => val_main_v33 (F := Ideal) x0 x1 x2 x3 x4 x5 x6 (lidx_main_v34 (ix2 p h) k))
    (fun k : Fin 128 => x7 (ridx_main_v34 (ix2 p h) k))
    (fun k : Fin 64 => x0 (ix2 p k)) (fun k : Fin 64 => val_main_v32 (F := Ideal) x0 x1 x2 x3 x4 x5 x6 (ix2 p k))
    (fun k => (congrArg (val_main_v33 (F := Ideal) x0 x1 x2 x3 x4 x5 x6) (lidx34 p h _)).trans (cat33_left x0 x1 x2 x3 x4 x5 x6 p k))
    (fun k => (congrArg (val_main_v33 (F := Ideal) x0 x1 x2 x3 x4 x5 x6) (lidx34 p h _)).trans (cat33_right x0 x1 x2 x3 x4 x5 x6 p k))
  refine hj.trans ?_
  exact congrArg₂ (· + ·)
    (Finset.sum_congr rfl fun k _ => congrArg (fun w => x0 (ix2 p k) * x7 w) (ridx34 p h _))
    (Finset.sum_congr rfl fun k _ =>
      congrArg (fun w => val_main_v32 (F := Ideal) x0 x1 x2 x3 x4 x5 x6 (ix2 p k) * x7 w) (ridx34 p h _))

/-- Hidden unit `h` of node `p`: the rectified first layer. -/
theorem hidden38 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (p : Fin 50000) (h : Fin 128) :
    val_main_v38 (F := Ideal) x0 x1 x2 x3 x4 x5 x6 x7 x8 (ix2 p h)
      = max ((∑ k : Fin 64, x0 (ix2 p k) * x7 (ix2 (⟨k.val, by omega⟩ : Fin 128) h))
          + (∑ k : Fin 64, val_main_v32 (F := Ideal) x0 x1 x2 x3 x4 x5 x6 (ix2 p k) * x7 (ix2 (⟨64 + k.val, by omega⟩ : Fin 128) h))
          + x8 (ix1 h)) 0 := by
  rw [val_main_v38_apply, Ideal.maximumf_def, val_main_v37_apply, Ideal.addf_def, val_main_call1_v0_apply,
    val_main_call1_cst_apply, Ideal.ofBits_def, Ideal.ofBits_zero_f32, bias36, dot34]

/-- The edge messages at `(e, j)`: the two-layer row function of row `e` of the gathered node features and row `e` of the
    edge features. -/
theorem edge_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal))
    (e : Fin 800000) (j : Fin 64) :
    val_main_v20 (F := Ideal) x0 x1 x2 x3 x4 x5 x6 (ix2 e j)
      = Cert.Mlp.row (fun k : Fin 64 => val_main_v10 (F := Ideal) x0 x1 (ix2 e k)) (fun k : Fin 32 => x2 (ix2 e k))
          (fun (k : Fin 64) (h : Fin 128) => x3 (ix2 (⟨k.val, by omega⟩ : Fin 96) h))
          (fun (k : Fin 32) (h : Fin 128) => x3 (ix2 (⟨64 + k.val, by omega⟩ : Fin 96) h))
          (fun h : Fin 128 => x4 (ix1 h)) (fun (h : Fin 128) (o : Fin 64) => x5 (ix2 h o))
          (fun o : Fin 64 => x6 (ix1 o)) j := by
  unfold Cert.Mlp.row
  rw [val_main_v20_apply, Ideal.addf_def, val_main_v17_apply, bias19]
  refine congrArg (· + x6 (ix1 j)) (Finset.sum_congr rfl fun h _ => ?_)
  rw [lidx17, ridx17, hidden16]

/-- The result at `(p, j)`: the two-layer row function of row `p` of the node features and row `p` of the mean-aggregated
    messages. -/
theorem node_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))
    (p : Fin 50000) (j : Fin 64) :
    val_main_v42 (F := Ideal) x0 x1 x2 x3 x4 x5 x6 x7 x8 x9 x10 (ix2 p j)
      = Cert.Mlp.row (fun k : Fin 64 => x0 (ix2 p k)) (fun k : Fin 64 => val_main_v32 (F := Ideal) x0 x1 x2 x3 x4 x5 x6 (ix2 p k))
          (fun (k : Fin 64) (h : Fin 128) => x7 (ix2 (⟨k.val, by omega⟩ : Fin 128) h))
          (fun (k : Fin 64) (h : Fin 128) => x7 (ix2 (⟨64 + k.val, by omega⟩ : Fin 128) h))
          (fun h : Fin 128 => x8 (ix1 h)) (fun (h : Fin 128) (o : Fin 64) => x9 (ix2 h o))
          (fun o : Fin 64 => x10 (ix1 o)) j := by
  unfold Cert.Mlp.row
  rw [val_main_v42_apply, Ideal.addf_def, val_main_v39_apply, bias41]
  refine congrArg (· + x10 (ix1 j)) (Finset.sum_congr rfl fun h _ => ?_)
  rw [lidx39, ridx39, hidden38]

end Cert.ReferenceIdeal.RefRead

end
-- ==== Proof.LibScatterCount.lean ====
/-
  A histogram by scatter: adding one at the position each index names counts how often each position is named.

  `Host.scatter` with an integer `add` body folds over the updates in row-major order; every update whose index lies
  inside the operand adds its value at that position, the others are dropped. With a column of `n` indices into a
  line of `K` bins and every update equal to one, bin `b` ends at its initial value plus the number of positions `p`
  whose index, read signed, is `b` (as a 32-bit word: the count is taken modulo 2³²).

  The argument has three parts, none of which looks at the size of `n`:

  * where an update lands. With one scattered operand axis, that axis inserted, and the index vector on axis 1 of the
    index column, update `j` has start `idx[j, 0]` read signed and window coordinate 0, so it lands on bin `idx[j, 0]`
    when `0 ≤ idx[j, 0] < K` and is dropped otherwise (`siIdx_col`, `start_col`, `window_none`, `sum_col`,
    `resultIdx_some`, `resultIdx_none`);
  * what a fold of such steps does to one bin. A step changes bin `b` only when its update lands on `b`, and then by
    adding one; by induction over the list of updates, the fold adds to bin `b` the number of list elements that land
    on it (`foldl_add_count`);
  * what that number is over the whole row-major enumeration. The enumeration meets every position `p < n` exactly
    once, so the number of enumerated updates landing on `b` is the number of `p` with `idx[p, 0] = b` (`count_rows`).
-/
import Idealize.ShloMosaic.PureOps
import Idealize.ShloMosaic.Lib.ValueIdx
import Idealize.ShloMosaic.Lib.StableHlo.Predicate

noncomputable section

open scoped BigOperators
open Idealize.ShloMosaic Idealize.ShloMosaic.ValueIdx

namespace Cert.LibScatterCount

/-! ### Where an update lands -/

open StableHlo.Predicate in
/-- With the index vector on axis 1 of an [n × 1] index column and one scattered operand axis, update `j` reads its one
    start component at row `j 0` of the column: the update's only axis is its scatter axis and goes to the column's
    axis 0, and the component number, below the length 1 of the axis map, is 0. -/
theorem siIdx_col {K n : Nat} (d : ScatterDims ⟨1, ![K]⟩ ⟨2, ![n, 1]⟩ ⟨1, ![n]⟩)
    (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    -- axis 0 is not the index vector's: its coordinate is the update's coordinate on its one (scatter) axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- The start of update `j`'s window on the operand's one axis is the index at row `j 0` of the column, read signed:
    the axis map names that axis. -/
theorem start_col {K n : Nat} (d : ScatterDims ⟨1, ![K]⟩ ⟨2, ![n, 1]⟩ ⟨1, ![n]⟩)
    (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a = (idx (ixP (j 0))).toInt := by
  have ha : a ∈ d.scatterDimsToOperandDims := by
    rw [hsd]
    have h0 : a = 0 := Subsingleton.elim _ _
    subst h0
    exact List.mem_singleton.mpr rfl
  unfold ScatterDims.start
  rw [dif_pos ha, siIdx_col d hsd hivd]
  rfl

/-- The window coordinate on the operand's one axis is 0: that axis is an inserted window axis, so no axis of the
    update is a window axis going to it. -/
theorem window_none {K n : Nat} (d : ScatterDims ⟨1, ![K]⟩ ⟨2, ![n, 1]⟩ ⟨1, ![n]⟩)
    (hiw : d.insertedWindowDims = [0])
    (j : (⟨1, ![n]⟩ : Shape).Idx) (a : Fin (⟨1, ![K]⟩ : Shape).rank) :
    d.window j a = 0 := by
  have ha : a ∉ d.sKept := by
    have h0 : a = 0 := Subsingleton.elim _ _
    subst h0
    simp [ScatterDims.sKept, Shape.kept, hiw]
  unfold ScatterDims.window
  rw [dif_neg ha]

open StableHlo.Predicate in
/-- Start plus window coordinate, the position update `j` aims at on the operand's one axis, is the signed index at
    row `j 0`. -/
theorem sum_col {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a + (d.window j a : Int) = (idx (ixP (j 0))).toInt := by
  rw [start_col d hsd hivd, window_none d hiw]; simp

open StableHlo.Predicate in
/-- An update that lands, lands on bin `b` exactly when its signed index is `b`: the landing position is the index,
    which is then non-negative, taken as a natural number. -/
theorem resultIdx_some {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (i : (⟨1, ![K]⟩ : Shape).Idx)
    (h : d.resultIdx? j idx = some i) (b : Fin K) :
    ix1 b = i ↔ (idx (ixP (j 0))).toInt = (b.val : Int) := by
  unfold ScatterDims.resultIdx? at h
  split at h
  · next hin =>
    have hi := Option.some.inj h
    -- inside the operand: 0 ≤ index < K
    have h0 := hin 0
    rw [sum_col d hiw hsd hivd] at h0
    -- and the landing coordinate is that index as a natural number
    have hv : (i 0).val = (idx (ixP (j 0))).toInt.toNat := by
      rw [← hi]
      show (d.start j idx 0 + (d.window j 0 : Int)).toNat = _
      rw [sum_col d hiw hsd hivd]
    constructor
    · intro e
      have : b.val = (i 0).val := congrArg (fun f => (f 0).val) e
      omega
    · intro e
      rw [eq_ix1 i]
      congr 1
      apply Fin.ext
      omega
  · exact absurd h (by simp)

open StableHlo.Predicate in
/-- A dropped update's signed index is no bin: it is negative or at least `K`, and every bin `b` has `0 ≤ b < K`. -/
theorem resultIdx_none {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx)
    (h : d.resultIdx? j idx = none) (b : Fin K) :
    (idx (ixP (j 0))).toInt ≠ (b.val : Int) := by
  intro e
  unfold ScatterDims.resultIdx? at h
  split at h
  · exact absurd h (by simp)
  · next hout =>
    -- were the index `b`, it would be inside the operand and the update would land
    apply hout
    intro a
    have h0 : a = 0 := Subsingleton.elim _ _
    subst h0
    rw [sum_col d hiw hsd hivd, e]
    have := b.isLt
    show (0 : Int) ≤ b.val ∧ (b.val : Int) < (K : Nat)
    omega

/-! ### A fold of steps that add one at a position -/

/-- A left fold whose step adds one at position `c` exactly on the list elements that pass the test `T`, and leaves
    position `c` as it was on the others, ends at the initial value there plus the number of elements that pass. -/
theorem foldl_add_count {ι β : Type} (F : (β → BitVec 32) → ι → β → BitVec 32) (c : β) (T : ι → Bool)
    (hF : ∀ r m, F r m c = if T m = true then r c + 1#32 else r c) (L : List ι) (r : β → BitVec 32) :
    (L.foldl F r) c = r c + BitVec.ofNat 32 (L.countP T) := by
  induction L generalizing r with
  | nil => simp
  | cons m L ih =>
    -- the tail's fold starts from the head's step: (r c [+ 1]) + #tail = r c + (#tail [+ 1])
    rw [List.foldl_cons, ih, hF, List.countP_cons]
    by_cases hT : T m = true
    · rw [if_pos hT, if_pos hT, BitVec.ofNat_add, BitVec.add_assoc]
      congr 1
      exact BitVec.add_comm _ _
    · rw [if_neg hT, if_neg hT, Nat.add_zero]

/-! ### The row-major enumeration of a line meets every position once -/

/-- Counting, along the row-major enumeration of a line of `n` positions, the positions whose coordinate passes a test
    is counting the coordinates `p < n` that pass it: the enumeration meets every coordinate exactly once. -/
theorem count_rows {n : Nat} (P : Fin n → Bool) :
    (List.finRange (⟨1, ![n]⟩ : Shape).numel).countP (fun m => P (((⟨1, ![n]⟩ : Shape).rowMajor.symm m) 0))
      = (Finset.univ.filter fun p : Fin n => P p = true).card := by
  -- the enumeration has no repeats, so the count is the size of the set of enumerated numbers that pass
  rw [List.countP_eq_length_filter, ← List.toFinset_card_of_nodup ((List.nodup_finRange _).filter _),
    List.toFinset_filter, List.toFinset_finRange]
  -- and a number's coordinate is a bijection from the numbers onto the coordinates
  refine Finset.card_bij (fun m _ => ((⟨1, ![n]⟩ : Shape).rowMajor.symm m) 0) ?_ ?_ ?_
  · intro m hm
    exact Finset.mem_filter.2 ⟨Finset.mem_univ _, (Finset.mem_filter.1 hm).2⟩
  · intro m _ m' _ e
    apply (⟨1, ![n]⟩ : Shape).rowMajor.symm.injective
    rw [eq_ix1 ((⟨1, ![n]⟩ : Shape).rowMajor.symm m), eq_ix1 ((⟨1, ![n]⟩ : Shape).rowMajor.symm m'), e]
  · intro p hp
    refine ⟨(⟨1, ![n]⟩ : Shape).rowMajor (ix1 p), Finset.mem_filter.2 ⟨Finset.mem_univ _, ?_⟩, ?_⟩
    · rw [Equiv.symm_apply_apply]; exact (Finset.mem_filter.1 hp).2
    · rw [Equiv.symm_apply_apply]; rfl

/-! ### The histogram -/

/-- Bin `b` of a scatter of ones along a column of indices: its initial word plus the number of rows whose index is `b`. -/
theorem scatter_ones_count {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → BitVec 32) (idx : IVec ⟨2, ![n, 1]⟩ 32) (b : Fin K) :
    Host.scatter d IntOp.addi x idx (fun _ => 1#32) (ix1 b)
      = x (ix1 b) + BitVec.ofNat 32 (Finset.univ.filter fun p : Fin n => (idx (StableHlo.Predicate.ixP p)).toInt = (b.val : Int)).card := by
  unfold Host.scatter
  -- the scatter is a left fold over the enumerated updates; the test on update number `m` is "its index is `b`"
  refine (foldl_add_count _ (ix1 b)
    (fun m => decide ((idx (StableHlo.Predicate.ixP (((⟨1, ![n]⟩ : Shape).rowMajor.symm m) 0))).toInt = (b.val : Int)))
    ?_ _ x).trans ?_
  · -- one step, read at bin `b`
    intro r m
    beta_reduce
    cases hres : d.resultIdx? ((⟨1, ![n]⟩ : Shape).rowMajor.symm m) idx with
    | none =>
      -- dropped: the bin keeps its value, and the index is not `b`
      have hne := resultIdx_none d hiw hsd hivd idx _ hres b
      show r (ix1 b) = _
      rw [if_neg (fun h => hne (of_decide_eq_true h))]
    | some i =>
      -- landed on `i`: bin `b` gains one when `i` is `b`, that is when the index is `b`, and keeps its value otherwise
      have hiff := resultIdx_some d hiw hsd hivd idx _ i hres b
      show (if ix1 b = i then IntOp.addi (r i) 1#32 else r (ix1 b)) = _
      by_cases hb : ix1 b = i
      · rw [if_pos hb, if_pos (decide_eq_true (hiff.1 hb)), ← hb]
        rfl
      · rw [if_neg hb, if_neg (fun h => hb (hiff.2 (of_decide_eq_true h)))]
  · -- the number of enumerated updates whose index is `b` is the number of rows whose index is `b`
    rw [count_rows fun p => decide ((idx (StableHlo.Predicate.ixP p)).toInt = (b.val : Int))]
    simp only [decide_eq_true_eq]

end Cert.LibScatterCount

end
-- ==== Proof.ScatterColumn.lean ====
/-
  A scatter-add into a column is the scatter-add into the line.

  Two accumulating scatters along the same column of indices: one adds the entries of an `[n, 1]` column of updates
  into a `[K, 1]` column (the updates' unit axis is a window axis that goes to the operand's unit axis), the other adds
  the entries of a length-`n` vector of updates into a length-`K` line (no window axis at all). On the extended reals
  each result entry is its initial value plus the sum of the updates that land on it. Update `(p, 0)` of the first
  lands on `(b, 0)` exactly when update `p` of the second lands on `b`: both read the start from row `p` of the index
  column, signed, and the unit axis adds window coordinate `0` to start `0`. So with constant initial value and constant
  updates the two results agree entry for entry.

  How the argument runs:

  * the column scatter, axis by axis. The operand `[K, 1]` has two axes. Axis 0 is the scattered axis and an inserted
    window axis: its start is the signed index at row `j 0` of the index column (`siIdx_colc`, `start_c0`) and its
    window coordinate is 0 (`window_c0`). Axis 1 is the one kept axis: the axis map does not name it, so its start is 0
    (`start_c1`), and its window coordinate is the update's coordinate on its window axis, which is below the extent 1,
    hence 0 (`window_c1`). So the position aimed at is `(idx[j 0, 0], 0)`, inside the operand exactly when
    `0 ≤ idx[j 0, 0] < K`, and update `j` lands on `(b, 0)` exactly when `idx[j 0, 0] = b` (`col_iff`);
  * the line scatter: update `e` lands on `b` exactly when `idx[e 0, 0] = b` (`line_iff`, from the two landing lemmas
    of the histogram file: a landed update sits on the bin its index names, a dropped update's index names no bin);
  * the updates' index sets correspond by `(p, 0) ↔ p`, the correspondence carries the set of updates landing on
    `(b, 0)` onto the set of updates landing on `b` by the two equivalences above, and the summands are the same
    constant, so the two sums are equal.
-/
import Idealize.ShloMosaic.PureOps
import Idealize.ShloMosaic.PureOps.Ideal
import Idealize.ShloMosaic.Lib.ValueIdx
import Idealize.ShloMosaic.Lib.StableHlo.Predicate
import proofs.«413862_j48636209660178_3_alg».proof.Proof.LibScatterCount

noncomputable section

open scoped BigOperators
open Idealize.ShloMosaic Idealize.ShloMosaic.ValueIdx

namespace Cert.ScatterColumn

open StableHlo.Predicate

/-! ### Where an update of the column scatter lands -/

/-- The entry of a one-element list of axes is that element. -/
theorem getElem_of_eq_singleton {m : Nat} (l : List (Fin m)) (x : Fin m) (hl : l = [x]) (i : Nat)
    (hi : i < l.length) : l[i] = x := by
  subst hl
  have h0 : i = 0 := by simpa using hi
  subst h0
  rfl

/-- Update `j` of the column scatter reads its one start component at row `j 0` of the index column: the updates'
    axes but the window axis 1 leave axis 0 as the one scatter axis, which goes to the index column's axis 0; on the
    index vector's axis 1 the coordinate is the component number, below the length 1 of the axis map, so 0. -/
theorem siIdx_colc {K n : Nat} (d : ScatterDims ⟨2, ![K, 1]⟩ ⟨2, ![n, 1]⟩ ⟨2, ![n, 1]⟩)
    (huw : d.updateWindowDims = [1]) (hsd : d.scatterDimsToOperandDims = [0]) (hivd : d.indexVectorDim = 1)
    (j : (⟨2, ![n, 1]⟩ : Shape).Idx) (c : Fin d.scatterDimsToOperandDims.length) :
    d.siIdx j c = ixP (j 0) := by
  funext b
  match b with
  | ⟨0, _⟩ =>
    -- axis 0 is not the index vector's: its coordinate is the update's coordinate on its scatter axis, axis 0
    unfold ScatterDims.siIdx
    rw [dif_neg (by rw [hivd]; simp)]
    unfold ScatterDims.siCoord
    apply Fin.ext
    simp only [Fin.val_cast]
    have e : ∀ X : Fin 2, X = 0 → (j X).val = (j 0).val := fun X hX => by subst hX; rfl
    apply e
    -- the updates' scatter axes: of the axes 0 and 1, the ones outside the window axes [1]
    have hu : d.uScatter = [0] := by
      show Shape.kept _ d.updateWindowDims = [0]
      rw [huw]; rfl
    exact getElem_of_eq_singleton _ _ hu _ _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

/-- On the operand's axis 0, which the axis map names, the window starts at the index at row `j 0`, read signed. -/
theorem start_c0 {K n : Nat} (d : ScatterDims ⟨2, ![K, 1]⟩ ⟨2, ![n, 1]⟩ ⟨2, ![n, 1]⟩)
    (huw : d.updateWindowDims = [1]) (hsd : d.scatterDimsToOperandDims = [0]) (hivd : d.indexVectorDim = 1)
    (idx : IVec ⟨2, ![n, 1]⟩ 32) (j : (⟨2, ![n, 1]⟩ : Shape).Idx) :
    d.start j idx 0 = (idx (ixP (j 0))).toInt := by
  have ha : (0 : Fin 2) ∈ d.scatterDimsToOperandDims := by rw [hsd]; exact List.mem_singleton.mpr rfl
  unfold ScatterDims.start
  rw [dif_pos ha, siIdx_colc d huw hsd hivd]
  rfl

/-- On the operand's axis 1, which the axis map does not name, the window starts at 0. -/
theorem start_c1 {K n : Nat} (d : ScatterDims ⟨2, ![K, 1]⟩ ⟨2, ![n, 1]⟩ ⟨2, ![n, 1]⟩)
    (hsd : d.scatterDimsToOperandDims = [0])
    (idx : IVec ⟨2, ![n, 1]⟩ 32) (j : (⟨2, ![n, 1]⟩ : Shape).Idx) :
    d.start j idx 1 = 0 := by
  have ha : (1 : Fin 2) ∉ d.scatterDimsToOperandDims := by
    rw [hsd]
    intro h
    have h' : (1 : Nat) = 0 := congrArg Fin.val (List.mem_singleton.1 h)
    omega
  unfold ScatterDims.start
  rw [dif_neg ha]

/-- The window coordinate on the operand's axis 0 is 0: that axis is an inserted window axis, so it is not among the
    kept axes the updates' window axes go to. -/
theorem window_c0 {K n : Nat} (d : ScatterDims ⟨2, ![K, 1]⟩ ⟨2, ![n, 1]⟩ ⟨2, ![n, 1]⟩)
    (hiw : d.insertedWindowDims = [0]) (j : (⟨2, ![n, 1]⟩ : Shape).Idx) :
    d.window j 0 = 0 := by
  have ha : (0 : Fin 2) ∉ d.sKept := by
    show (0 : Fin 2) ∉ Shape.kept _ d.insertedWindowDims
    rw [hiw]
    intro h
    unfold Shape.kept at h
    have h2 := (List.mem_filter.1 h).2
    exact absurd (List.mem_singleton.mpr rfl) (of_decide_eq_true h2)
  unfold ScatterDims.window
  rw [dif_neg ha]

/-- The window coordinate on the operand's axis 1 is 0: it is the update's coordinate on its window axis 1, and that
    axis has extent 1. -/
theorem window_c1 {K n : Nat} (d : ScatterDims ⟨2, ![K, 1]⟩ ⟨2, ![n, 1]⟩ ⟨2, ![n, 1]⟩)
    (huw : d.updateWindowDims = [1]) (j : (⟨2, ![n, 1]⟩ : Shape).Idx) :
    d.window j 1 = 0 := by
  unfold ScatterDims.window
  split
  · have e : ∀ X : Fin 2, X = 1 → (j X).val = 0 := fun X hX => by
      subst hX
      have := idx2_lt1 j
      omega
    apply e
    exact getElem_of_eq_singleton _ _ huw _ _
  · rfl

/-- Update `j` of the column scatter lands on `(b, 0)` exactly when the signed index at row `j 0` is `b`: the position it aims
    at is (that index, 0), which is inside the operand exactly when the index is at least 0 and below `K`. -/
theorem col_iff {K n : Nat} (d : ScatterDims ⟨2, ![K, 1]⟩ ⟨2, ![n, 1]⟩ ⟨2, ![n, 1]⟩)
    (huw : d.updateWindowDims = [1]) (hiw : d.insertedWindowDims = [0])
    (hsd : d.scatterDimsToOperandDims = [0]) (hivd : d.indexVectorDim = 1)
    (idx : IVec ⟨2, ![n, 1]⟩ 32) (j : (⟨2, ![n, 1]⟩ : Shape).Idx) (b : Fin K) :
    d.resultIdx? j idx = some (ix2 b (0 : Fin 1)) ↔ (idx (ixP (j 0))).toInt = (b.val : Int) := by
  -- start plus window coordinate on the two axes
  have s0 : d.start j idx 0 + (d.window j 0 : Int) = (idx (ixP (j 0))).toInt := by
    rw [start_c0 d huw hsd hivd, window_c0 d hiw]; simp
  have s1 : d.start j idx 1 + (d.window j 1 : Int) = 0 := by
    rw [start_c1 d hsd, window_c1 d huw]; simp
  unfold ScatterDims.resultIdx?
  split
  · next hin =>
    -- inside the operand: 0 ≤ index < K, and the landing coordinate on axis 0 is the index as a natural number
    have h0 := hin 0
    rw [s0] at h0
    constructor
    · intro h
      have hi := Option.some.inj h
      have hv : (d.start j idx 0 + (d.window j 0 : Int)).toNat = b.val := congrArg (fun f => (f 0).val) hi
      rw [s0] at hv
      omega
    · intro e
      congr 1
      funext a
      match a with
      | ⟨0, _⟩ =>
        apply Fin.ext
        show (d.start j idx 0 + (d.window j 0 : Int)).toNat = b.val
        rw [s0]; omega
      | ⟨1, _⟩ =>
        exact Subsingleton.elim (α := Fin 1) _ _
  · next hout =>
    -- dropped: were the index `b`, the position (b, 0) would be inside the operand on both axes
    constructor
    · intro h; exact absurd h (by simp)
    · intro e
      exfalso
      apply hout
      intro a
      match a with
      | ⟨0, _⟩ =>
        show 0 ≤ d.start j idx 0 + (d.window j 0 : Int) ∧ d.start j idx 0 + (d.window j 0 : Int) < (K : Nat)
        rw [s0, e]
        have := b.isLt
        omega
      | ⟨1, _⟩ =>
        show 0 ≤ d.start j idx 1 + (d.window j 1 : Int) ∧ d.start j idx 1 + (d.window j 1 : Int) < (1 : Nat)
        rw [s1]
        omega

/-! ### Where an update of the line scatter lands -/

/-- Update `e` of the line scatter lands on `b` exactly when the signed index at row `e 0` is `b`: a dropped update's index
    is no bin, and a landed update sits on the bin its index names. -/
theorem line_iff {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (e : (⟨1, ![n]⟩ : Shape).Idx) (b : Fin K) :
    d.resultIdx? e idx = some (ix1 b) ↔ (idx (ixP (e 0))).toInt = (b.val : Int) := by
  cases h : d.resultIdx? e idx with
  | none =>
    have hne := Cert.LibScatterCount.resultIdx_none d hiw hsd hivd idx e h b
    constructor
    · intro h'; exact absurd h' (by simp)
    · intro h'; exact absurd h' hne
  | some i =>
    have hiff := Cert.LibScatterCount.resultIdx_some d hiw hsd hivd idx e i h b
    constructor
    · intro h'; exact hiff.1 (Option.some.inj h').symm
    · intro h'; exact congrArg some (hiff.2 h').symm

/-! ### The two scatters agree -/

/-- Entry `(b, 0)` of the column scatter is entry `b` of the line scatter. -/
theorem scatterAdd_column_eq_line {K n : ℕ}
    (dc : ScatterDims ⟨2, ![K, 1]⟩ ⟨2, ![n, 1]⟩ ⟨2, ![n, 1]⟩) (dl : ScatterDims ⟨1, ![K]⟩ ⟨2, ![n, 1]⟩ ⟨1, ![n]⟩)
    (hcuw : dc.updateWindowDims = [1]) (hciw : dc.insertedWindowDims = [0])
    (hcsd : dc.scatterDimsToOperandDims = [0]) (hciv : dc.indexVectorDim = 1)
    (hluw : dl.updateWindowDims = []) (hliw : dl.insertedWindowDims = [0])
    (hlsd : dl.scatterDimsToOperandDims = [0]) (hliv : dl.indexVectorDim = 1)
    (idx : IVec ⟨2, ![n, 1]⟩ 32) (x0 u : EReal) (b : Fin K) :
    Ideal.hostScatterAdd dc (fun _ => x0) idx (fun _ => u) (ix2 b (0 : Fin 1))
      = Ideal.hostScatterAdd dl (fun _ => x0) idx (fun _ => u) (ix1 b) := by
  unfold Ideal.hostScatterAdd
  -- the same initial value; the sums run over corresponding sets of updates, through (p, 0) ↔ p
  congr 1
  refine Finset.sum_bij' (fun j _ => ix1 (j 0)) (fun e _ => ix2 (e 0) (0 : Fin 1)) ?_ ?_ ?_ ?_ ?_
  · -- a column update landing on (b, 0) goes to a line update landing on b
    intro j hj
    have h := (Finset.mem_filter.1 hj).2
    refine Finset.mem_filter.2 ⟨Finset.mem_univ _, ?_⟩
    exact (line_iff dl hliw hlsd hliv idx (ix1 (j 0)) b).2 ((col_iff dc hcuw hciw hcsd hciv idx j b).1 h)
  · -- and back
    intro e he
    have h := (Finset.mem_filter.1 he).2
    refine Finset.mem_filter.2 ⟨Finset.mem_univ _, ?_⟩
    exact (col_iff dc hcuw hciw hcsd hciv idx (ix2 (e 0) (0 : Fin 1)) b).2 ((line_iff dl hliw hlsd hliv idx e b).1 h)
  · -- (p, q) ↦ p ↦ (p, 0) is the identity: the unit axis has the one coordinate 0
    intro j _
    rw [eq_ix2 j]
    congr 1
    exact Subsingleton.elim (α := Fin 1) _ _
  · intro e _
    exact (eq_ix1 e).symm
  · -- the summands are the same constant
    intro j _
    rfl

end Cert.ScatterColumn

end
-- ==== Proof.Bridge.lean ====
/-
  The reference's result is the kernel's function of the arguments.

  Index by index both are the two-layer row function of a node's features and its mean message, and the mean message
  is the per-target sum of the edge messages divided by the per-target edge count raised to at least one.
  * The edge messages agree row by row: the same gathered row and edge row; the kernel's two weight pieces are the
    rows of the reference's weight below 64 and from 64 on; the kernel's bias row is the reference's bias vector.
  * The per-target sums agree because they are the same scatter of equal messages along the same index column.
  * The counts agree although the kernel sums a column of ones into a column and the reference a vector of ones into
    a line: entry `(p, 0)` of the first is entry `p` of the second.
  * The node layer agrees as the edge layer does.
  Nothing here depends on what a scatter computes beyond that: the two message scatters are one function of equal
  arguments, and the two count scatters are compared entry by entry by the column-and-line lemma.
-/
import proofs.«413862_j48636209660178_3_alg».proof.Proof.KernelValue
import proofs.«413862_j48636209660178_3_alg».proof.Proof.RefRead
import proofs.«413862_j48636209660178_3_alg».proof.Proof.ScatterColumn
import proofs.«413862_j48636209660178_3_alg».proof.Proof.MlpCongr
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Facts₀ Cert.KernelIdeal.Facts Cert.KernelIdeal.KValue
open Idealize.ShloMosaic Idealize.ShloMosaic.ValueIdx

/-- The gathered source rows are one term in both programs. -/
theorem gather_eq (x0 : (⟨S50000x64, .f32⟩ : BufTy).Contents (Elt Ideal)) (x1 : (⟨S2x800000, .i32⟩ : BufTy).Contents (Elt Ideal)) :
    Cert.ReferenceIdeal.Read.val_main_v10 (F := Ideal) x0 x1 = gathered x0 x1 := rfl

/-- The target index column is one term in both programs, at both of the reference's uses. -/
theorem dst_eq (x1 : (⟨S2x800000, .i32⟩ : BufTy).Contents (Elt Ideal)) : Cert.ReferenceIdeal.Read.val_main_v22 (F := Ideal) x1 = dstIdx x1 := rfl
theorem dst_eq' (x1 : (⟨S2x800000, .i32⟩ : BufTy).Contents (Elt Ideal)) : Cert.ReferenceIdeal.Read.val_main_v26 (F := Ideal) x1 = dstIdx x1 := rfl

/-- The edge messages agree. -/
theorem edge_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    Cert.ReferenceIdeal.Read.val_main_v20 (F := Ideal) x0 x1 x2 x3 x4 x5 x6 = edgeMsgs x0 x1 x2 x3 x4 x5 x6 := by
  funext i
  obtain ⟨e, j, rfl⟩ : ∃ (e : Fin 800000) (j : Fin 64), i = ix2 e j := ⟨i 0, i 1, eq_ix2 i⟩
  refine (Cert.ReferenceIdeal.RefRead.edge_apply x0 x1 x2 x3 x4 x5 x6 e j).trans ?_
  unfold edgeMsgs Cert.KernelIdeal.Region0.msgs
  exact Cert.Mlp.row_congr (fun k => congrFun (gather_eq x0 x1) (ix2 e k)) (fun k => rfl)
    (fun k h => (slice2_axis0_apply 0 x3 slices_S96x128_S64x128_0_0 k h _ (Nat.zero_add _).symm).symm)
    (fun k h => (slice2_axis0_apply 64 x3 slices_S96x128_S32x128_64_0 k h _ rfl).symm)
    (fun h => (shapeCast_a_1a_apply x4 shapeCasts_S128_S1x128 (0 : Fin 1) h).symm) (fun h o => rfl)
    (fun o => (shapeCast_a_1a_apply x6 shapeCasts_S64_S1x64 (0 : Fin 1) o).symm) j

/-- The per-target sums of the messages agree. -/
theorem sum_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    Cert.ReferenceIdeal.Read.val_main_v23 (F := Ideal) x0 x1 x2 x3 x4 x5 x6 = msgSum x0 x1 x2 x3 x4 x5 x6 := by
  unfold Cert.ReferenceIdeal.Read.val_main_v23 msgSum
  rw [edge_eq, dst_eq]
  rfl

/-- A scalar spread over a shape reads that scalar everywhere. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  broadcastInDim_apply _ h _ i (fun a => a.elim0) (fun a => a.elim0)

/-- The reference's edge count, before it is raised to one: the line scatter of ones from zero. -/
theorem ref_scatter (x1 : (⟨S2x800000, .i32⟩ : BufTy).Contents (Elt Ideal)) :
    Cert.ReferenceIdeal.Read.val_main_v27 (F := Ideal) x1
      = Ideal.hostScatterAdd Cert.ReferenceIdeal.scatter_S50000_S800000x1_S800000_n_0_0_1 (fun _ => (Ideal.ofBits .f32 0x00000000#32)) (dstIdx x1) (fun _ => (Ideal.ofBits .f32 0x3F800000#32)) := by
  have hz1 : (Cert.ReferenceIdeal.Read.val_main_v25 (F := Ideal)) = fun _ => (Ideal.ofBits .f32 0x00000000#32) := funext fun i => splat_apply _ _ i
  have ho1 : (Cert.ReferenceIdeal.Read.val_main_v24 (F := Ideal)) = fun _ => (Ideal.ofBits .f32 0x3F800000#32) := funext fun i => splat_apply _ _ i
  unfold Cert.ReferenceIdeal.Read.val_main_v27 Host.scatterAdd
  rw [Ideal.hostScatterAdd_def, hz1, ho1, dst_eq']

/-- The kernel's edge count, before it is raised to one: the column scatter of ones from zero. -/
theorem ker_scatter (x1 : (⟨S2x800000, .i32⟩ : BufTy).Contents (Elt Ideal)) :
    Host.scatterAdd (F := Ideal) scatter_S50000x1_S800000x1_S800000x1_1_0_0_1
        (broadcastInDim S50000x1 ![] bcast_S_S50000x1 (constant (F := Ideal) S_ .f32 0x00000000#32)) (dstIdx x1)
        (broadcastInDim S800000x1 ![] bcast_S_S800000x1 (constant (F := Ideal) S_ .f32 0x3F800000#32))
      = Ideal.hostScatterAdd scatter_S50000x1_S800000x1_S800000x1_1_0_0_1 (fun _ => (Ideal.ofBits .f32 0x00000000#32)) (dstIdx x1) (fun _ => (Ideal.ofBits .f32 0x3F800000#32)) := by
  have hzc : (broadcastInDim S50000x1 ![] bcast_S_S50000x1 (constant (F := Ideal) S_ .f32 0x00000000#32))
      = fun _ => (Ideal.ofBits .f32 0x00000000#32) := funext fun i => splat_apply _ _ i
  have hoc : (broadcastInDim S800000x1 ![] bcast_S_S800000x1 (constant (F := Ideal) S_ .f32 0x3F800000#32))
      = fun _ => (Ideal.ofBits .f32 0x3F800000#32) := funext fun i => splat_apply _ _ i
  unfold Host.scatterAdd
  rw [Ideal.hostScatterAdd_def, hzc, hoc]

/-- The counts agree: the reference's line at `p` is the kernel's column at `(p, 0)`. -/
theorem count_eq (x1 : (⟨S2x800000, .i32⟩ : BufTy).Contents (Elt Ideal)) (p : Fin 50000) :
    Cert.ReferenceIdeal.Read.val_main_v29 (F := Ideal) x1 (ix1 p) = countCol x1 (ix2 p (0 : Fin 1)) := by
  rw [Cert.ReferenceIdeal.Read.val_main_v29_apply, Ideal.maximumf_def, ref_scatter, Cert.ReferenceIdeal.Read.val_main_v28_apply, Cert.ReferenceIdeal.Read.val_main_cst_3_apply,
    Ideal.ofBits_def]
  unfold countCol
  rw [maximumf_apply, ker_scatter, splat_apply]
  exact congrArg (max · (Ideal.ofBits .f32 0x3F800000#32)) (Cert.ScatterColumn.scatterAdd_column_eq_line scatter_S50000x1_S800000x1_S800000x1_1_0_0_1 Cert.ReferenceIdeal.scatter_S50000_S800000x1_S800000_n_0_0_1
    rfl rfl rfl rfl rfl rfl rfl rfl (dstIdx x1) (Ideal.ofBits .f32 0x00000000#32) (Ideal.ofBits .f32 0x3F800000#32) p).symm

/-- A host division read at an index divides the operands' entries there. -/
theorem hostDivf_apply {s : Shape} (x y : FVec Ideal s .f32) (i : s.Idx) :
    Host.divf (F := Ideal) x y i = Ideal.div (x i) (y i) := rfl

/-- Reading the count column at row `p`, through the reference's two spreads: the line's index is `p`. -/
theorem idx_v30_v31 (p : Fin 50000) (k : Fin 64) :
    Cert.ReferenceIdeal.Read.idx_main_v30 (Cert.ReferenceIdeal.Read.idx_main_v31 (ix2 p k)) = ix1 p :=
  funext fun a => match a with | ⟨0, _⟩ => rfl

/-- The kernel's count column spread along the features reads, at `(p, k)`, the column at `(p, 0)`. -/
theorem count_bcast (x1 : (⟨S2x800000, .i32⟩ : BufTy).Contents (Elt Ideal)) (p : Fin 50000) (k : Fin 64) :
    broadcastInDim S50000x64 ![0, 1] bcast_S50000x1_S50000x64_0_1 (countCol x1) (ix2 p k) = countCol x1 (ix2 p (0 : Fin 1)) := by
  generalize countCol x1 = y
  exact broadcastInDim_apply _ bcast_S50000x1_S50000x64_0_1 y (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])

/-- The kernel's mean message at an index: the sum there divided by the spread count there. -/
theorem agg_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (i : S50000x64.Idx) :
    agg x0 x1 x2 x3 x4 x5 x6 i
      = Ideal.div (msgSum x0 x1 x2 x3 x4 x5 x6 i)
          (broadcastInDim S50000x64 ![0, 1] bcast_S50000x1_S50000x64_0_1 (countCol x1) i) := by
  unfold agg
  exact hostDivf_apply _ _ i

/-- The mean messages agree. -/
theorem agg_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 50000) (k : Fin 64) :
    Cert.ReferenceIdeal.Read.val_main_v32 (F := Ideal) x0 x1 x2 x3 x4 x5 x6 (ix2 p k) = agg x0 x1 x2 x3 x4 x5 x6 (ix2 p k) := by
  rw [Cert.ReferenceIdeal.Read.val_main_v32_apply, Ideal.hostDivf_def, sum_eq, Cert.ReferenceIdeal.Read.val_main_v31_apply, Cert.ReferenceIdeal.Read.val_main_v30_apply,
    idx_v30_v31, count_eq, agg_apply, count_bcast]

/-- The reference's result is the kernel's function of the arguments. -/
theorem result_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    Cert.ReferenceIdeal.Read.val_main_v42 (F := Ideal) x0 x1 x2 x3 x4 x5 x6 x7 x8 x9 x10 = result x0 x1 x2 x3 x4 x5 x6 x7 x8 x9 x10 := by
  funext i
  obtain ⟨p, j, rfl⟩ : ∃ (p : Fin 50000) (j : Fin 64), i = ix2 p j := ⟨i 0, i 1, eq_ix2 i⟩
  refine (Cert.ReferenceIdeal.RefRead.node_apply x0 x1 x2 x3 x4 x5 x6 x7 x8 x9 x10 p j).trans ?_
  unfold result Cert.KernelIdeal.Region1.outs
  exact Cert.Mlp.row_congr (fun k => rfl) (fun k => agg_eq x0 x1 x2 x3 x4 x5 x6 p k)
    (fun k h => (slice2_axis0_apply 0 x7 slices_S128x128_S64x128_0_0 k h _ (Nat.zero_add _).symm).symm)
    (fun k h => (slice2_axis0_apply 64 x7 slices_S128x128_S64x128_64_0 k h _ rfl).symm)
    (fun h => (shapeCast_a_1a_apply x8 shapeCasts_S128_S1x128 (0 : Fin 1) h).symm) (fun h o => rfl)
    (fun o => (shapeCast_a_1a_apply x10 shapeCasts_S64_S1x64 (0 : Fin 1) o).symm) j

end Cert.Bridge

end
-- ==== Proof.lean ====
/-
  A two-stage message-passing layer: per edge a two-layer perceptron of the source node's features joined with the
  edge's features, the messages averaged per target node, then per node a two-layer perceptron of the node's features
  joined with its mean message.

  The kernel computes each perceptron in a pallas_call over row blocks, multiplying the two pieces of the joined input
  by the two pieces of the first weight separately and adding the products; the reference joins the pieces first and
  multiplies once. On the extended reals the two agree because a sum over the joined feature axis is the sum over the
  first piece plus the sum over the second, which uses only associativity of addition: the precondition is never opened.
  The gather, the wrapping of negative indices, the per-target sum of the messages and the division are the same host
  operations in both programs. The one host difference is the edge count: the kernel sums a column of ones into a
  column and the reference a vector of ones into a line, and entry `(p, 0)` of the first is entry `p` of the second.

  The three frames are the generated ones (the reference's is its generated run with the result dropped); the
  idealization rewrote nothing, so `preserves` is trivial; `algebraic` pairs the kernel's run, with its result read
  back through the two pipelines and the two host stretches as one function of the arguments, with the reference's
  generated run, whose result is that same function.
-/
import proofs.«413862_j48636209660178_3_alg».proof.Defs
import proofs.«413862_j48636209660178_3_alg».proof.Proof.Gen.Kernel
import proofs.«413862_j48636209660178_3_alg».proof.Proof.Gen.Kernel.Skeleton
import proofs.«413862_j48636209660178_3_alg».proof.Proof.Gen.Kernel.Launch
import proofs.«413862_j48636209660178_3_alg».proof.Proof.Gen.Kernel.Points
import proofs.«413862_j48636209660178_3_alg».proof.Proof.Gen.Kernel.Frame
import proofs.«413862_j48636209660178_3_alg».proof.Proof.Gen.KernelIdeal
import proofs.«413862_j48636209660178_3_alg».proof.Proof.Gen.KernelIdeal.Skeleton
import proofs.«413862_j48636209660178_3_alg».proof.Proof.Gen.KernelIdeal.Launch
import proofs.«413862_j48636209660178_3_alg».proof.Proof.Gen.KernelIdeal.Points
import proofs.«413862_j48636209660178_3_alg».proof.Proof.Gen.KernelIdeal.Frame
import proofs.«413862_j48636209660178_3_alg».proof.Proof.Gen.ReferenceIdeal
import proofs.«413862_j48636209660178_3_alg».proof.Proof.Gen.Pre_finite_inputs
import proofs.«413862_j48636209660178_3_alg».proof.Proof.Gen.ReferenceIdeal.Run
import proofs.«413862_j48636209660178_3_alg».proof.Proof.Gen.ReferenceIdeal.Read
import proofs.«413862_j48636209660178_3_alg».proof.Proof.KernelRun
import proofs.«413862_j48636209660178_3_alg».proof.Proof.KernelValue
import proofs.«413862_j48636209660178_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at one function of the
    arguments: the kernel's by reading its run back, the reference's by its generated run and the index-by-index
    agreement of the two terms. -/
theorem algebraic : Cert.algebraic_KernelIdeal_ReferenceIdeal := by
  intro m ρ m' ρ' _ hagree
  refine ⟨fun c => Cert.KernelIdeal.KValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v42_eq, Cert.Bridge.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
